-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x256 .f32) (main_arg1 : FVec F S4096x4096 .f32) (main_arg2 : FVec F S4096x4096 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S256x4096 : Shape := ⟨2, ![256, 4096]⟩
abbrev S512x4096 : Shape := ⟨2, ![512, 4096]⟩
abbrev S512x256 : Shape := ⟨2, ![512, 256]⟩

abbrev nBuf : Space → Nat
  | .hbm => 27
  | .vmem => 27
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S1x256, .f32⟩
  | .hbm, ⟨15, _⟩ => ⟨S256x256, .f32⟩
  | .hbm, ⟨16, _⟩ => ⟨S256x256, .f32⟩
  | .hbm, ⟨17, _⟩ => ⟨S256, .f32⟩
  | .hbm, ⟨18, _⟩ => ⟨S1x256, .f32⟩
  | .hbm, ⟨19, _⟩ => ⟨S4096x256, .f32⟩
  | .hbm, ⟨20, _⟩ => ⟨S4096x4096, .bf16⟩
  | .hbm, ⟨21, _⟩ => ⟨S4096x4096, .bf16⟩
  | .hbm, ⟨22, _⟩ => ⟨S256x256, .f32⟩
  | .hbm, ⟨23, _⟩ => ⟨S256x256, .f32⟩
  | .hbm, ⟨24, _⟩ => ⟨S256, .f32⟩
  | .hbm, ⟨25, _⟩ => ⟨S1x256, .f32⟩
  | .hbm, ⟨26, _⟩ => ⟨S4096x256, .f32⟩
  | .local _ .vmem, ⟨0, _⟩ => ⟨S4096x256, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S4096x256, .f32⟩
  | .local _ .vmem, ⟨17, _⟩ => ⟨S512x4096, .bf16⟩
  | .local _ .vmem, ⟨18, _⟩ => ⟨S512x4096, .bf16⟩
  | .local _ .vmem, ⟨19, _⟩ => ⟨S512x4096, .bf16⟩
  | .local _ .vmem, ⟨20, _⟩ => ⟨S512x4096, .bf16⟩
  | .local _ .vmem, ⟨21, _⟩ => ⟨S4096x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S512x256, .f32⟩
  | .local _ .vmem, ⟨26, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6_0 : Ref sig .tc := ⟨.hbm, 19, rfl⟩
abbrev main_call0_v6_1 : Ref sig .tc := ⟨.hbm, 20, rfl⟩
abbrev main_call0_v6_2 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v0 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S256x256_S256x256_1_0 : S256x256.Transposes [1, 0] S256x256
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S4096x256_S4096x256 : S4096x256.ShapeCasts S4096x256
  inb_S256x4096_S256x4096_0_0 : ∀ a, (![0, 0] : Fin 2 → Nat) a + S256x4096.size a ≤ S256x4096.size a
  h_S256x4096 : 0 < S256x4096.numel
  broadcasts_S1x256_S256x256 : S1x256.Broadcasts S256x256
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S4096x256_S256x256_S4096x256_1_0_0_1_n_n_wf : DotDims.WF S4096x256 S256x256 S4096x256 [1] [0] [0] [1] [] []
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S4096x256.size a
  hwx0_8 : ∀ i : grid0.Coords, EltTy.bits .f32 = 32 ∨ (Rect.block (s := S4096x256) S256x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4096.size a ≤ S4096x4096.size a
  hwx0_9 : ∀ i : grid0.Coords, EltTy.bits .bf16 = 32 ∨ (Rect.block (s := S4096x4096) S256x4096.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x4096.size a ≤ S4096x4096.size a
  hwx0_10 : ∀ i : grid0.Coords, EltTy.bits .bf16 = 32 ∨ (Rect.block (s := S4096x4096) S256x4096.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .f32 = 32 ∨ (Rect.block (s := S4096x256) S4096x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S4096x256.size a
  hwx1_6 : ∀ i : grid1.Coords, EltTy.bits .f32 = 32 ∨ (Rect.block (s := S4096x256) S512x256.size (cc1_transform_6 i) (hinb1_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6_0) S256x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v6_1) S256x4096.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_call0_v6_2) S256x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_call0_v6_1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6_2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v6_0) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v10) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S256x256, .f32⟩
  | .hbm, ⟨22, _⟩ => ⟨S4096x256, .f32⟩
  | .hbm, ⟨23, _⟩ => ⟨S1x256, .f32⟩
  | .hbm, ⟨24, _⟩ => ⟨S4096x256, .f32⟩
  | .hbm, ⟨25, _⟩ => ⟨S4096x256, .f32⟩
  | .hbm, ⟨26, _⟩ => ⟨S256x256, .f32⟩
  | .hbm, ⟨27, _⟩ => ⟨S4096x256, .f32⟩
  | .hbm, ⟨28, _⟩ => ⟨S1x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S256x256, .f32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S256x256, .f32⟩
  | .hbm, ⟨41, _⟩ => ⟨S4096x256, .f32⟩
  | .hbm, ⟨42, _⟩ => ⟨S1x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.K.Region0.lean ====
import proofs.«155376_g26603027432194_cont_9to1_1414_9_alg».proof.Proof.Gen.Kernel.Launch
import proofs.«155376_g26603027432194_cont_9to1_1414_9_alg».proof.Proof.Gen.Kernel.Skeleton
import proofs.«155376_g26603027432194_cont_9to1_1414_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call (input projection fused with layer 0), sixteen stripes of 256 rows

At the first grid point the body computes the projected features `tanh(x · WinT + b_in)` for ALL rows and stores them
whole into a scratch buffer that no window stages; at every point (the first included) it loads that scratch, the two
adjacency stripes and the layer's weights, stores the layer's stripe, and stores the two stripes again narrowed to
bf16. So the scratch is carried between points: after the first point it holds one fixed array (`hS`), and the region's
invariant says so. Everything is stated at a parameter `V`: the buffers' contents when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/
abbrev rX0 : Rect S4096x256 := Rect.unit (s := S4096x256) ![0, 0] S4096x256.size inb_S4096x256_S4096x256_0_0
abbrev rA0 : Rect S256x4096 := Rect.unit (s := S256x4096) ![0, 0] S256x4096.size inb_S256x4096_S256x4096_0_0
abbrev rW0 : Rect S256x256 := Rect.unit (s := S256x256) ![0, 0] S256x256.size inb_S256x256_S256x256_0_0
abbrev rB0 : Rect S1x256 := Rect.unit (s := S1x256) ![0, 0] S1x256.size inb_S1x256_S1x256_0_0

/-- The scratch after the first point's store: the projected features of all rows, from the whole input array, the
    transposed input weight and the input bias. -/
def sc0 (x : Vec F S4096x256 .f32) (wi : Vec F S256x256 .f32) (bi : Vec F S1x256 .f32) : Vec F S4096x256 .f32 :=
  View.canon [⟨rX0, k0_pay1 (View.ld x rX0) (View.ld wi rW0) (View.ld bi rB0)⟩]

/-- The layer's stripe after the body, from the two adjacency stripes, the scratch, the two transposed weights and the
    summed bias: its one store (the scratch is loaded twice, once for each product). -/
def out0_8 (ap an : Vec F S256x4096 .f32) (s : Vec F S4096x256 .f32) (wpos wneg : Vec F S256x256 .f32) (b : Vec F S1x256 .f32) : Vec F S256x256 .f32 :=
  View.canon [⟨rW0, k0_pay2 (View.ld ap rA0) (View.ld an rA0) (View.ld s rX0) (View.ld s rX0) (View.ld wpos rW0) (View.ld wneg rW0) (View.ld b rB0)⟩]

/-- The positive adjacency stripe narrowed, as stored. -/
def out0_9 (ap : Vec F S256x4096 .f32) : Vec F S256x4096 .bf16 :=
  View.canon [⟨rA0, k0_pay3 (View.ld ap rA0)⟩]
/-- The negative adjacency stripe narrowed, as stored. -/
def out0_10 (an : Vec F S256x4096 .f32) : Vec F S256x4096 .bf16 :=
  View.canon [⟨rA0, k0_pay4 (View.ld an rA0)⟩]

/-- What the scratch holds from the first point on (windows 0, 3 and 4 have one block, the whole array; it is read at
    the first point). -/
def hS (c : Dev nD) : Vec F S4096x256 .f32 :=
  sc0 (iblk0 V c 0 t0_0) (iblk0 V c 3 t0_0) (iblk0 V c 4 t0_0)

/-- The kernel's scratch operand. -/
abbrev scr0 : Memref sig .tc .vmem S4096x256 .f32 := Memref.whole cc0_scratch0

/-- The region's invariant before position `k`: before the first point, the scoped rest (the scratch among it, at
    anything) and the generator register; afterwards the scratch at `hS`, the other scoped buffers at anything, and the
    generator register. -/
def Phi0 (c : Dev nD) (k : Fin (cfg0.N + 1)) : sProp 𝕄 :=
  if k.val = 0 then Pipeline.ΦA spec0 c
  else iprop(owns (c : Thread nD τ) scr0 fullShare (hS V c)
    ∗ Pipeline.scopedRestBut (Ix := Unit) (Name := ℕ) (U := UR sig nD τ) (Lvl := ℕ) (Val := Elt F) spec0 c [cc0_scratch0] ∗ ∃ r, prngReg c r)

/-- The proof data of the first pallas_call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 1 t) (iblk0 V c 2 t) (hS V c) (iblk0 V c 5 t) (iblk0 V c 6 t) (iblk0 V c 7 t)
    | ⟨9, _⟩ => out0_9 (iblk0 V c 1 t)
    | ⟨10, _⟩ => out0_10 (iblk0 V c 2 t)
  Φ k := Phi0 V c k
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 1 t) (iblk0 V c 2 t) (hS V c) (iblk0 V c 5 t) (iblk0 V c 6 t) (iblk0 V c 7 t) := by dsimp only [dat0]
theorem after0_9 (c : Dev nD) (t : Fin cfg0.N) : (dat0 V c).after 9 t = out0_9 (iblk0 V c 1 t) := by dsimp only [dat0]
theorem after0_10 (c : Dev nD) (t : Fin cfg0.N) : (dat0 V c).after 10 t = out0_10 (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body on whole memrefs -/

/-- The body's one branch, on the grid coordinate: taken at the first stripe only. -/
abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (by decide +kernel : ∀ t : Fin grid0.N, cond0 (grid0.coords t) ↔ t.val = 0)

/-- Each store covers the buffer it stores into. -/
theorem cover0_X (p0 : Vec F S4096x256 .f32) (y : S4096x256.Idx) :
    ∃ pc ∈ ([⟨rX0, p0⟩] : List (View.Piece (Elt F) S4096x256 .f32)), y ∈ pc.1.set :=
  View.cover_of_tiled [⟨rX0, p0⟩] S4096x256.size (by rfl) y
theorem cover0_W (p0 : Vec F S256x256 .f32) (y : S256x256.Idx) :
    ∃ pc ∈ ([⟨rW0, p0⟩] : List (View.Piece (Elt F) S256x256 .f32)), y ∈ pc.1.set :=
  View.cover_of_tiled [⟨rW0, p0⟩] S256x256.size (by rfl) y
theorem cover0_A (p0 : Vec F S256x4096 .bf16) (y : S256x4096.Idx) :
    ∃ pc ∈ ([⟨rA0, p0⟩] : List (View.Piece (Elt F) S256x4096 .bf16)), y ∈ pc.1.set :=
  View.cover_of_tiled [⟨rA0, p0⟩] S256x4096.size (by rfl) y

set_option maxHeartbeats 4000000 in
/-- The body at a later stripe (the branch not taken): the inputs and the scratch at read contents, the three outputs
    at anything, run to the continuation with the inputs and the scratch as they were and each output at its store. -/
theorem sound_kernel0_later (c : Dev nD) (E : Set ℕ) (i : grid0.Coords) (hc : ¬cond0 i)
    (a1 : Memref sig .tc .vmem S4096x256 .f32) (h1 : a1.IsWhole) (a2 : Memref sig .tc .vmem S256x4096 .f32) (h2 : a2.IsWhole)
    (a3 : Memref sig .tc .vmem S256x4096 .f32) (h3 : a3.IsWhole) (a4 : Memref sig .tc .vmem S256x256 .f32) (h4 : a4.IsWhole)
    (a5 : Memref sig .tc .vmem S1x256 .f32) (h5 : a5.IsWhole) (a6 : Memref sig .tc .vmem S256x256 .f32) (h6 : a6.IsWhole)
    (a7 : Memref sig .tc .vmem S256x256 .f32) (h7 : a7.IsWhole) (a8 : Memref sig .tc .vmem S1x256 .f32) (h8 : a8.IsWhole)
    (a9 : Memref sig .tc .vmem S256x256 .f32) (h9 : a9.IsWhole) (a10 : Memref sig .tc .vmem S256x4096 .bf16) (h10 : a10.IsWhole)
    (a11 : Memref sig .tc .vmem S256x4096 .bf16) (h11 : a11.IsWhole) (a12 : Memref sig .tc .vmem S4096x256 .f32) (h12 : a12.IsWhole)
    (x : Vec F S4096x256 .f32) (ap an : Vec F S256x4096 .f32) (wi : Vec F S256x256 .f32) (bi : Vec F S1x256 .f32)
    (wpos wneg : Vec F S256x256 .f32) (b : Vec F S1x256 .f32) (s : Vec F S4096x256 .f32) (K : PUnit → sProp 𝕄) :
    iprop(owns (c : Thread nD τ) a1 fullShare x ∗ owns (c : Thread nD τ) a2 fullShare ap ∗ owns (c : Thread nD τ) a3 fullShare an
        ∗ owns (c : Thread nD τ) a4 fullShare wi ∗ owns (c : Thread nD τ) a5 fullShare bi ∗ owns (c : Thread nD τ) a6 fullShare wpos
        ∗ owns (c : Thread nD τ) a7 fullShare wneg ∗ owns (c : Thread nD τ) a8 fullShare b
        ∗ (∃ d, owns (c : Thread nD τ) a9 fullShare d) ∗ (∃ d, owns (c : Thread nD τ) a10 fullShare d) ∗ (∃ d, owns (c : Thread nD τ) a11 fullShare d)
        ∗ owns (c : Thread nD τ) a12 fullShare s
        ∗ (iprop(owns (c : Thread nD τ) a1 fullShare x ∗ owns (c : Thread nD τ) a2 fullShare ap ∗ owns (c : Thread nD τ) a3 fullShare an
        ∗ owns (c : Thread nD τ) a4 fullShare wi ∗ owns (c : Thread nD τ) a5 fullShare bi ∗ owns (c : Thread nD τ) a6 fullShare wpos
        ∗ owns (c : Thread nD τ) a7 fullShare wneg ∗ owns (c : Thread nD τ) a8 fullShare b
            ∗ owns (c : Thread nD τ) a9 fullShare (out0_8 ap an s wpos wneg b) ∗ owns (c : Thread nD τ) a10 fullShare (out0_9 ap)
            ∗ owns (c : Thread nD τ) a11 fullShare (out0_10 an) ∗ owns (c : Thread nD τ) a12 fullShare s) -∗ K ⟨⟩))
      ⊢ wp frame (wpE (defs₀ (F := F)) Variants.none c none) E (cc0__layer0_kernel i a1 h1 a2 h2 a3 h3 a4 h4 a5 h5 a6 h6 a7 h7 a8 h8 a9 h9 a10 h10 a11 h11 a12 h12) K := by
  simp only [cc0__layer0_kernel_eq_skeleton]; unfold cc0__layer0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
  subst hf1; subst hf2; subst hf3; subst hf4; subst hf5; subst hf6; subst hf7; subst hf8; subst hf12
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_W _)
  isplitl [H10]
  · iexists _; isplitr
    swap; · iexact H10
    ipureintro
    exact View.read_writes_eq_canon _ _ _ (cover0_A _)
  isplitl [H11]
  · iexists _; isplitr
    swap; · iexact H11
    ipureintro
    exact View.read_writes_eq_canon _ _ _ (cover0_A _)
  iexists f12; isplitr; · ipureintro; rfl
  iexact H12

set_option maxHeartbeats 4000000 in
/-- The body at the first stripe (the branch taken): the inputs at read contents, the scratch and the three outputs at
    anything, run to the continuation with the inputs as they were, the scratch at the projected features of all rows
    and each output at its store (the layer's stripe from that scratch). -/
theorem sound_kernel0_first (c : Dev nD) (E : Set ℕ) (i : grid0.Coords) (hc : cond0 i)
    (a1 : Memref sig .tc .vmem S4096x256 .f32) (h1 : a1.IsWhole) (a2 : Memref sig .tc .vmem S256x4096 .f32) (h2 : a2.IsWhole)
    (a3 : Memref sig .tc .vmem S256x4096 .f32) (h3 : a3.IsWhole) (a4 : Memref sig .tc .vmem S256x256 .f32) (h4 : a4.IsWhole)
    (a5 : Memref sig .tc .vmem S1x256 .f32) (h5 : a5.IsWhole) (a6 : Memref sig .tc .vmem S256x256 .f32) (h6 : a6.IsWhole)
    (a7 : Memref sig .tc .vmem S256x256 .f32) (h7 : a7.IsWhole) (a8 : Memref sig .tc .vmem S1x256 .f32) (h8 : a8.IsWhole)
    (a9 : Memref sig .tc .vmem S256x256 .f32) (h9 : a9.IsWhole) (a10 : Memref sig .tc .vmem S256x4096 .bf16) (h10 : a10.IsWhole)
    (a11 : Memref sig .tc .vmem S256x4096 .bf16) (h11 : a11.IsWhole) (a12 : Memref sig .tc .vmem S4096x256 .f32) (h12 : a12.IsWhole)
    (x : Vec F S4096x256 .f32) (ap an : Vec F S256x4096 .f32) (wi : Vec F S256x256 .f32) (bi : Vec F S1x256 .f32)
    (wpos wneg : Vec F S256x256 .f32) (b : Vec F S1x256 .f32) (K : PUnit → sProp 𝕄) :
    iprop(owns (c : Thread nD τ) a1 fullShare x ∗ owns (c : Thread nD τ) a2 fullShare ap ∗ owns (c : Thread nD τ) a3 fullShare an
        ∗ owns (c : Thread nD τ) a4 fullShare wi ∗ owns (c : Thread nD τ) a5 fullShare bi ∗ owns (c : Thread nD τ) a6 fullShare wpos
        ∗ owns (c : Thread nD τ) a7 fullShare wneg ∗ owns (c : Thread nD τ) a8 fullShare b
        ∗ (∃ d, owns (c : Thread nD τ) a9 fullShare d) ∗ (∃ d, owns (c : Thread nD τ) a10 fullShare d) ∗ (∃ d, owns (c : Thread nD τ) a11 fullShare d)
        ∗ (∃ d, owns (c : Thread nD τ) a12 fullShare d)
        ∗ (iprop(owns (c : Thread nD τ) a1 fullShare x ∗ owns (c : Thread nD τ) a2 fullShare ap ∗ owns (c : Thread nD τ) a3 fullShare an
        ∗ owns (c : Thread nD τ) a4 fullShare wi ∗ owns (c : Thread nD τ) a5 fullShare bi ∗ owns (c : Thread nD τ) a6 fullShare wpos
        ∗ owns (c : Thread nD τ) a7 fullShare wneg ∗ owns (c : Thread nD τ) a8 fullShare b
            ∗ owns (c : Thread nD τ) a9 fullShare (out0_8 ap an (sc0 x wi bi) wpos wneg b) ∗ owns (c : Thread nD τ) a10 fullShare (out0_9 ap)
            ∗ owns (c : Thread nD τ) a11 fullShare (out0_10 an) ∗ owns (c : Thread nD τ) a12 fullShare (sc0 x wi bi)) -∗ K ⟨⟩))
      ⊢ wp frame (wpE (defs₀ (F := F)) Variants.none c none) E (cc0__layer0_kernel i a1 h1 a2 h2 a3 h3 a4 h4 a5 h5 a6 h6 a7 h7 a8 h8 a9 h9 a10 h10 a11 h11 a12 h12) K := by
  simp only [cc0__layer0_kernel_eq_skeleton]; unfold cc0__layer0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1; subst hf2; subst hf3; subst hf4; subst hf5; subst hf6; subst hf7; subst hf8
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [View.readCov_eq_canon_ld _ _ _ (cover0_X _)]
    exact View.read_writes_eq_canon _ _ _ (cover0_W _)
  isplitl [H10]
  · iexists _; isplitr
    swap; · iexact H10
    ipureintro
    exact View.read_writes_eq_canon _ _ _ (cover0_A _)
  isplitl [H11]
  · iexists _; isplitr
    swap; · iexact H11
    ipureintro
    exact View.read_writes_eq_canon _ _ _ (cover0_A _)
  iexists _; isplitr
  swap; · iexact H12
  ipureintro
  sl_unfold_words
  exact View.read_writes_eq_canon _ _ _ (cover0_X _)

/-! ## The invariant at a position -/

/-- Before the first point the invariant is what the launch hands over. -/
theorem Phi0_zero (c : Dev nD) (k : Fin (cfg0.N + 1)) (hk : k.val = 0) :
    (dat0 V c).Φ k = (Pipeline.ΦA spec0 c : sProp 𝕄) := by
  dsimp only [dat0]; unfold Phi0; rw [if_pos hk]

/-- From the first point on it holds the scratch at its one fixed array. -/
theorem Phi0_pos (c : Dev nD) (k : Fin (cfg0.N + 1)) (hk : k.val ≠ 0) :
    (dat0 V c).Φ k = iprop(owns (c : Thread nD τ) scr0 fullShare (hS V c)
      ∗ Pipeline.scopedRestBut (Ix := Unit) (Name := ℕ) (U := UR sig nD τ) (Lvl := ℕ) (Val := Elt F) spec0 c [cc0_scratch0] ∗ ∃ r, prngReg c r) := by
  dsimp only [dat0]; unfold Phi0; rw [if_neg hk]

/-- The scoped rest with the scratch taken out of it: the scratch as a whole memref owned at some contents, the
    other scoped buffers unopened, the generator register. -/
theorem PhiA0_split (c : Dev nD) :
    (Pipeline.ΦA spec0 c : sProp 𝕄)
      = iprop(((∃ d, owns (c : Thread nD τ) scr0 fullShare d)
          ∗ Pipeline.scopedRestBut (Ix := Unit) (Name := ℕ) (U := UR sig nD τ) (Lvl := ℕ) (Val := Elt F) spec0 c [cc0_scratch0])
          ∗ ∃ r, prngReg c r) := by
  unfold Pipeline.ΦA
  rw [Pipeline.scopedRest_split_of_list spec0 c [cc0_scratch0] (by decide) (by decide)]
  simp only [bigSepL_singleton, scr0, owns_whole]; try rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8, after0_9, after0_10,
    Phi0_pos V c t.succ (Nat.succ_ne_zero t.val : t.succ.val ≠ 0)]
  by_cases hz : t.val = 0
  · -- the first stripe: the scratch comes out of the scoped rest at anything and is left at the projected features
    have ht : t = t0_0 := Fin.ext hz
    have hSt : hS V c = sc0 (iblk0 V c 0 t) (iblk0 V c 3 t) (iblk0 V c 4 t) := by rw [ht]; rfl
    rw [Phi0_zero V c t.castSucc (hz : t.castSucc.val = 0), PhiA0_split, hSt]
    iintro ⟨⟨⟨⟨%ds, HS⟩, HR⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_first c Set.univ (grid0.coords t) ((hcond0 t).2 hz) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexists _; iexact HS
    iintro ⟨H0, H1, H2, H3, H4, H5, H6, H7, H8, H9, H10, HS⟩
    isplitl [HS HR Hr]
    · isplitl [HS]; · iexact HS
      isplitl [HR]; · iexact HR
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · -- a later stripe: the scratch is read and left as it was
    rw [Phi0_pos V c t.castSucc (hz : t.castSucc.val ≠ 0)]
    iintro ⟨⟨HS, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_later c Set.univ (grid0.coords t) (fun h => hz ((hcond0 t).1 h)) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (hS V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS HR Hr]
    · isplitl [HS]; · iexact HS
      isplitl [HR]; · iexact HR
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- What the launch hands the region is the invariant before the first point. -/
theorem hin0 (c : Dev nD) : Pipeline.ΦA spec0 c ⊢ (dat0 V c).Φ 0 := by
  rw [Phi0_zero V c 0 rfl]

/-- After the last point the invariant gives the scoped rest and the generator register back: the scratch's contents
    are forgotten. -/
theorem hout0 (c : Dev nD) : (dat0 V c).Φ (Fin.last cfg0.N) ⊢ Pipeline.ΦA spec0 c := by
  have hlast : (Fin.last cfg0.N).val ≠ 0 := by
    show grid0.N ≠ 0
    rw [N_0]; decide
  rw [Phi0_pos V c (Fin.last cfg0.N) hlast, PhiA0_split]
  iintro ⟨HS, HR, Hr⟩
  isplitl [HS HR]
  · isplitl [HS]; · iexists _; iexact HS
    iexact HR
  iexact Hr

/-- The body obligation at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1.lean ====
import proofs.«155376_g26603027432194_cont_9to1_1414_9_alg».proof.Proof.Gen.Kernel.Launch
import proofs.«155376_g26603027432194_cont_9to1_1414_9_alg».proof.Proof.Gen.Kernel.Skeleton
import proofs.«155376_g26603027432194_cont_9to1_1414_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (layer 1): one fused stripe pass per grid point

Every operand is staged by the pipeline; the body loads the six input blocks whole, computes
`tanh((Ap · h) · Wp + (An · h) · Wn + b)` for a stripe of 512 rows and stores the stripe whole. Nothing is carried
between points, so what the output's staging buffer holds after a point is one pure function of that point's
input blocks. Everything here is stated at a parameter `V`: the buffers' contents when the region is entered. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there
or kept it from the point before (the index map did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/
abbrev rA1 : Rect S512x4096 := Rect.unit (s := S512x4096) ![0, 0] S512x4096.size inb_S512x4096_S512x4096_0_0
abbrev rH1 : Rect S4096x256 := Rect.unit (s := S4096x256) ![0, 0] S4096x256.size inb_S4096x256_S4096x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0
abbrev rO1 : Rect S512x256 := Rect.unit (s := S512x256) ![0, 0] S512x256.size inb_S512x256_S512x256_0_0

/-- The output stripe's staging buffer after the body, from the six input blocks (positive adjacency stripe,
    negative adjacency stripe, the features, the two transposed weights, the summed bias): its one store. -/
def out1_6 (ap an : Vec F S512x4096 .bf16) (h : Vec F S4096x256 .f32) (wpos wneg : Vec F S256x256 .f32) (b : Vec F S1x256 .f32) : Vec F S512x256 .f32 :=
  View.canon [⟨rO1, k1_pay1 (View.ld h rH1) (View.ld ap rA1) (View.ld an rA1) (View.ld wpos rW1) (View.ld wneg rW1) (View.ld b rB1)⟩]

/-- The one store covers the staging buffer. -/
theorem cover1_6 (p0 : Vec F S512x256 .f32) (y : S512x256.Idx) :
    ∃ pc ∈ ([⟨rO1, p0⟩] : List (View.Piece (Elt F) S512x256 .f32)), y ∈ pc.1.set :=
  View.cover_of_tiled [⟨rO1, p0⟩] S512x256.size (by rfl) y

set_option maxHeartbeats 4000000 in
/-- The body on whole staging memrefs: the inputs at read contents, the output at anything, run to the continuation
    with the inputs as they were and the output at `out1_6` of them. -/
theorem sound_kernel1 (c : Dev nD) (E : Set ℕ) (i : grid1.Coords)
    (a1 : Memref sig .tc .vmem S512x4096 .bf16) (h1 : a1.IsWhole) (a2 : Memref sig .tc .vmem S512x4096 .bf16) (h2 : a2.IsWhole)
    (a3 : Memref sig .tc .vmem S4096x256 .f32) (h3 : a3.IsWhole) (a4 : Memref sig .tc .vmem S256x256 .f32) (h4 : a4.IsWhole)
    (a5 : Memref sig .tc .vmem S256x256 .f32) (h5 : a5.IsWhole) (a6 : Memref sig .tc .vmem S1x256 .f32) (h6 : a6.IsWhole)
    (a7 : Memref sig .tc .vmem S512x256 .f32) (h7 : a7.IsWhole)
    (ap an : Vec F S512x4096 .bf16) (h : Vec F S4096x256 .f32) (wpos wneg : Vec F S256x256 .f32) (b : Vec F S1x256 .f32) (K : PUnit → sProp 𝕄) :
    iprop(owns (c : Thread nD τ) a1 fullShare ap ∗ owns (c : Thread nD τ) a2 fullShare an ∗ owns (c : Thread nD τ) a3 fullShare h
        ∗ owns (c : Thread nD τ) a4 fullShare wpos ∗ owns (c : Thread nD τ) a5 fullShare wneg ∗ owns (c : Thread nD τ) a6 fullShare b
        ∗ (∃ d, owns (c : Thread nD τ) a7 fullShare d)
        ∗ (iprop(owns (c : Thread nD τ) a1 fullShare ap ∗ owns (c : Thread nD τ) a2 fullShare an ∗ owns (c : Thread nD τ) a3 fullShare h
            ∗ owns (c : Thread nD τ) a4 fullShare wpos ∗ owns (c : Thread nD τ) a5 fullShare wneg ∗ owns (c : Thread nD τ) a6 fullShare b
            ∗ owns (c : Thread nD τ) a7 fullShare (out1_6 ap an h wpos wneg b)) -∗ K ⟨⟩))
      ⊢ wp frame (wpE (defs₀ (F := F)) Variants.none c none) E (cc1__layer1_kernel i a1 h1 a2 h2 a3 h3 a4 h4 a5 h5 a6 h6 a7 h7) K := by
  simp only [cc1__layer1_kernel_eq_skeleton]; unfold cc1__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-! ## The proof data -/

/-- The proof data of the second pallas_call on core `c`: the arrays as the region finds them; after the body at
    point `t` each input's buffer at its block and the output's at `out1_6` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
import proofs.«155376_g26603027432194_cont_9to1_1414_9_alg».proof.Proof.Gen.Kernel.Launch
import proofs.«155376_g26603027432194_cont_9to1_1414_9_alg».proof.Proof.Gen.Kernel.Skeleton
import proofs.«155376_g26603027432194_cont_9to1_1414_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155376_g26603027432194_cont_9to1_1414_9_alg».proof.Proof.Gen.Kernel.Regions
import proofs.«155376_g26603027432194_cont_9to1_1414_9_alg».proof.Proof.K.Region0
import proofs.«155376_g26603027432194_cont_9to1_1414_9_alg».proof.Proof.K.Region1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: host operations, the first pallas_call, host operations, the second pallas_call

The buffers' contents at each boundary are a fold from the launch memory: a host stretch applies its operations; a
pallas_call leaves each of its arrays at what the write-backs of its proof data leave and every other buffer as
entered. The run ends with every unscoped buffer at the last boundary's contents; the arguments are written by no
stretch and are inputs (or bypass) of both regions, so they read back as launched. -/

variable (m : (ℓ : Loc nD τ sig) → Buf (Elt F) ℓ)

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- A host stretch leaves the buffers it does not write. -/
theorem W1_of (c : Dev nD) (b : Ref sig .tc) (h : b ∉ hostOps0_W) : W1 m c (Proc.devRef .tc b) = W0 m c (Proc.devRef .tc b) :=
  StableHlo.after_of_writes_sub hostOps0 _ hostOps0_writes h
theorem W3_of (c : Dev nD) (b : Ref sig .tc) (h : b ∉ hostOps1_W) : W3 m c (Proc.devRef .tc b) = W2 m c (Proc.devRef .tc b) :=
  StableHlo.after_of_writes_sub hostOps1 _ hostOps1_writes h

/-! ### The arguments end as launched -/
theorem W4_main_arg0 (c : Dev nD) : W4 m c (Proc.devRef .tc main_arg0) = m ((c : Thread nD τ).loc main_arg0) :=
  (W4_of_ne m c main_arg0 (by decide)).trans <| (W3_of m c main_arg0 (by decide)).trans <|
    ((W2_arr m c 0).trans (((dat0 (E1 m) c).arrAt_in 0 rfl _).trans (A_eq0 (E1 m) c 0))).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <|
    ((W2_arr m c 1).trans (((dat0 (E1 m) c).arrAt_in 1 rfl _).trans (A_eq0 (E1 m) c 1))).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <|
    ((W2_arr m c 2).trans (((dat0 (E1 m) c).arrAt_in 2 rfl _).trans (A_eq0 (E1 m) c 2))).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <|
    (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <|
    (W2_of_ne m c main_arg4 (by decide)).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <|
    (W2_of_ne m c main_arg5 (by decide)).trans <| (W1_of m c main_arg5 (by decide)).trans rfl
theorem W4_main_arg6 (c : Dev nD) : W4 m c (Proc.devRef .tc main_arg6) = m ((c : Thread nD τ).loc main_arg6) :=
  (W4_of_ne m c main_arg6 (by decide)).trans <| (W3_of m c main_arg6 (by decide)).trans <|
    (W2_of_ne m c main_arg6 (by decide)).trans <| (W1_of m c main_arg6 (by decide)).trans rfl
theorem W4_main_arg7 (c : Dev nD) : W4 m c (Proc.devRef .tc main_arg7) = m ((c : Thread nD τ).loc main_arg7) :=
  (W4_of_ne m c main_arg7 (by decide)).trans <| (W3_of m c main_arg7 (by decide)).trans <|
    (W2_of_ne m c main_arg7 (by decide)).trans <| (W1_of m c main_arg7 (by decide)).trans rfl
theorem W4_main_arg8 (c : Dev nD) : W4 m c (Proc.devRef .tc main_arg8) = m ((c : Thread nD τ).loc main_arg8) :=
  (W4_of_ne m c main_arg8 (by decide)).trans <| (W3_of m c main_arg8 (by decide)).trans <|
    (W2_of_ne m c main_arg8 (by decide)).trans <| (W1_of m c main_arg8 (by decide)).trans rfl
theorem W4_main_arg9 (c : Dev nD) : W4 m c (Proc.devRef .tc main_arg9) = m ((c : Thread nD τ).loc main_arg9) :=
  (W4_of_ne m c main_arg9 (by decide)).trans <| (W3_of m c main_arg9 (by decide)).trans <|
    (W2_of_ne m c main_arg9 (by decide)).trans <| (W1_of m c main_arg9 (by decide)).trans rfl
theorem W4_main_arg10 (c : Dev nD) : W4 m c (Proc.devRef .tc main_arg10) = m ((c : Thread nD τ).loc main_arg10) :=
  (W4_of_ne m c main_arg10 (by decide)).trans <| (W3_of m c main_arg10 (by decide)).trans <|
    (W2_of_ne m c main_arg10 (by decide)).trans <| (W1_of m c main_arg10 (by decide)).trans rfl
theorem W4_main_arg11 (c : Dev nD) : W4 m c (Proc.devRef .tc main_arg11) = m ((c : Thread nD τ).loc main_arg11) :=
  (W4_of_ne m c main_arg11 (by decide)).trans <| (W3_of m c main_arg11 (by decide)).trans <|
    (W2_of_ne m c main_arg11 (by decide)).trans <| (W1_of m c main_arg11 (by decide)).trans rfl
theorem W4_main_arg12 (c : Dev nD) : W4 m c (Proc.devRef .tc main_arg12) = m ((c : Thread nD τ).loc main_arg12) :=
  (W4_of_ne m c main_arg12 (by decide)).trans <| (W3_of m c main_arg12 (by decide)).trans <|
    (W2_of_ne m c main_arg12 (by decide)).trans <| (W1_of m c main_arg12 (by decide)).trans rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m c) ∗ ∃ r, prngReg c r)

set_option backward.isDefEq.respectTransparency.types false in
/-- The first pallas_call over the thread state "every unscoped buffer whole at the boundary's contents, the
    generator register at some state, nothing owed": its arrays are split out of the unscoped buffers on entry and put
    back at what the write-backs leave on exit; the scoped rest and the generator register go into the body's
    invariant and come back; the kernel has no semaphore of its own. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (Ix := Unit) (Name := ℕ) (U := UR sig nD τ) (Lvl := ℕ) (pcfgs (F := F) 0).pre c (fun _ => fullShare) (adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state "every unscoped buffer whole at the boundary's contents, the
    generator register at some state, nothing owed": its arrays are split out of the unscoped buffers on entry and put
    back at what the write-backs leave on exit; the scoped rest and the generator register go into the body's
    invariant and come back; the kernel has no semaphore of its own. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (E3 m c) (E4 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m) ]
theorem main_runH (c : Dev nD) : main (F := F) c = Pipeline.Seg.run (segsH m) := (main_chain c).trans (by chain_rfl)

set_option backward.isDefEq.respectTransparency.types false in
/-- From any memory with zero counters every weakly fair execution of @main terminates, nothing faulting, and in every
    final state each unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_ucH main_arg0 (by decide))).trans (W4_main_arg0 m c),
    (h c _ (mem_ucH main_arg1 (by decide))).trans (W4_main_arg1 m c),
    (h c _ (mem_ucH main_arg2 (by decide))).trans (W4_main_arg2 m c),
    (h c _ (mem_ucH main_arg3 (by decide))).trans (W4_main_arg3 m c),
    (h c _ (mem_ucH main_arg4 (by decide))).trans (W4_main_arg4 m c),
    (h c _ (mem_ucH main_arg5 (by decide))).trans (W4_main_arg5 m c),
    (h c _ (mem_ucH main_arg6 (by decide))).trans (W4_main_arg6 m c),
    (h c _ (mem_ucH main_arg7 (by decide))).trans (W4_main_arg7 m c),
    (h c _ (mem_ucH main_arg8 (by decide))).trans (W4_main_arg8 m c),
    (h c _ (mem_ucH main_arg9 (by decide))).trans (W4_main_arg9 m c),
    (h c _ (mem_ucH main_arg10 (by decide))).trans (W4_main_arg10 m c),
    (h c _ (mem_ucH main_arg11 (by decide))).trans (W4_main_arg11 m c),
    (h c _ (mem_ucH main_arg12 (by decide))).trans (W4_main_arg12 m c)⟩) (run_all m ρ)

/-- The result buffer ends at what the second region's write-backs leave. -/
theorem result_all (ρ : Dev nD → PrngReg) : θ_run defs (onTc (τ := τ) (main (F := F))) ⟨m, fun _ => 0, ρ⟩ (fun r => ∀ c : Dev nD,
      r.2.mem ((c.tc : Thread nD τ).loc main_v0) = (dat1 (E3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_ucH main_v0 (by decide))).trans (W4_arr m c 6),
    (h c _ (mem_ucH main_arg0 (by decide))).trans (W4_main_arg0 m c),
    (h c _ (mem_ucH main_arg1 (by decide))).trans (W4_main_arg1 m c),
    (h c _ (mem_ucH main_arg2 (by decide))).trans (W4_main_arg2 m c),
    (h c _ (mem_ucH main_arg3 (by decide))).trans (W4_main_arg3 m c),
    (h c _ (mem_ucH main_arg4 (by decide))).trans (W4_main_arg4 m c),
    (h c _ (mem_ucH main_arg5 (by decide))).trans (W4_main_arg5 m c),
    (h c _ (mem_ucH main_arg6 (by decide))).trans (W4_main_arg6 m c),
    (h c _ (mem_ucH main_arg7 (by decide))).trans (W4_main_arg7 m c),
    (h c _ (mem_ucH main_arg8 (by decide))).trans (W4_main_arg8 m c),
    (h c _ (mem_ucH main_arg9 (by decide))).trans (W4_main_arg9 m c),
    (h c _ (mem_ucH main_arg10 (by decide))).trans (W4_main_arg10 m c),
    (h c _ (mem_ucH main_arg11 (by decide))).trans (W4_main_arg11 m c),
    (h c _ (mem_ucH main_arg12 (by decide))).trans (W4_main_arg12 m c)⟩) (run_all m ρ)

end Cert.Kernel.Hand

end
-- ==== Proof.KI.Region0.lean ====
import proofs.«155376_g26603027432194_cont_9to1_1414_9_alg».proof.Proof.Gen.KernelIdeal.Launch
import proofs.«155376_g26603027432194_cont_9to1_1414_9_alg».proof.Proof.Gen.KernelIdeal.Skeleton
import proofs.«155376_g26603027432194_cont_9to1_1414_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call (input projection fused with layer 0), sixteen stripes of 256 rows

At the first grid point the body computes the projected features `tanh(x · WinT + b_in)` for ALL rows and stores them
whole into a scratch buffer that no window stages; at every point (the first included) it loads that scratch, the two
adjacency stripes and the layer's weights, stores the layer's stripe, and stores the two stripes again narrowed to
bf16. So the scratch is carried between points: after the first point it holds one fixed array (`hS`), and the region's
invariant says so. Everything is stated at a parameter `V`: the buffers' contents when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/
abbrev rX0 : Rect S4096x256 := Rect.unit (s := S4096x256) ![0, 0] S4096x256.size inb_S4096x256_S4096x256_0_0
abbrev rA0 : Rect S256x4096 := Rect.unit (s := S256x4096) ![0, 0] S256x4096.size inb_S256x4096_S256x4096_0_0
abbrev rW0 : Rect S256x256 := Rect.unit (s := S256x256) ![0, 0] S256x256.size inb_S256x256_S256x256_0_0
abbrev rB0 : Rect S1x256 := Rect.unit (s := S1x256) ![0, 0] S1x256.size inb_S1x256_S1x256_0_0

/-- The scratch after the first point's store: the projected features of all rows, from the whole input array, the
    transposed input weight and the input bias. -/
def sc0 (x : Vec F S4096x256 .f32) (wi : Vec F S256x256 .f32) (bi : Vec F S1x256 .f32) : Vec F S4096x256 .f32 :=
  View.canon [⟨rX0, k0_pay1 (View.ld x rX0) (View.ld wi rW0) (View.ld bi rB0)⟩]

/-- The layer's stripe after the body, from the two adjacency stripes, the scratch, the two transposed weights and the
    summed bias: its one store (the scratch is loaded twice, once for each product). -/
def out0_8 (ap an : Vec F S256x4096 .f32) (s : Vec F S4096x256 .f32) (wpos wneg : Vec F S256x256 .f32) (b : Vec F S1x256 .f32) : Vec F S256x256 .f32 :=
  View.canon [⟨rW0, k0_pay2 (View.ld ap rA0) (View.ld an rA0) (View.ld s rX0) (View.ld s rX0) (View.ld wpos rW0) (View.ld wneg rW0) (View.ld b rB0)⟩]

/-- The positive adjacency stripe narrowed, as stored. -/
def out0_9 (ap : Vec F S256x4096 .f32) : Vec F S256x4096 .bf16 :=
  View.canon [⟨rA0, k0_pay3 (View.ld ap rA0)⟩]
/-- The negative adjacency stripe narrowed, as stored. -/
def out0_10 (an : Vec F S256x4096 .f32) : Vec F S256x4096 .bf16 :=
  View.canon [⟨rA0, k0_pay4 (View.ld an rA0)⟩]

/-- What the scratch holds from the first point on (windows 0, 3 and 4 have one block, the whole array; it is read at
    the first point). -/
def hS (c : Dev nD) : Vec F S4096x256 .f32 :=
  sc0 (iblk0 V c 0 t0_0) (iblk0 V c 3 t0_0) (iblk0 V c 4 t0_0)

/-- The kernel's scratch operand. -/
abbrev scr0 : Memref sig .tc .vmem S4096x256 .f32 := Memref.whole cc0_scratch0

/-- The region's invariant before position `k`: before the first point, the scoped rest (the scratch among it, at
    anything) and the generator register; afterwards the scratch at `hS`, the other scoped buffers at anything, and the
    generator register. -/
def Phi0 (c : Dev nD) (k : Fin (cfg0.N + 1)) : sProp 𝕄 :=
  if k.val = 0 then Pipeline.ΦA spec0 c
  else iprop(owns (c : Thread nD τ) scr0 fullShare (hS V c)
    ∗ Pipeline.scopedRestBut (Ix := Unit) (Name := ℕ) (U := UR sig nD τ) (Lvl := ℕ) (Val := Elt F) spec0 c [cc0_scratch0] ∗ ∃ r, prngReg c r)

/-- The proof data of the first pallas_call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 1 t) (iblk0 V c 2 t) (hS V c) (iblk0 V c 5 t) (iblk0 V c 6 t) (iblk0 V c 7 t)
    | ⟨9, _⟩ => out0_9 (iblk0 V c 1 t)
    | ⟨10, _⟩ => out0_10 (iblk0 V c 2 t)
  Φ k := Phi0 V c k
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 1 t) (iblk0 V c 2 t) (hS V c) (iblk0 V c 5 t) (iblk0 V c 6 t) (iblk0 V c 7 t) := by dsimp only [dat0]
theorem after0_9 (c : Dev nD) (t : Fin cfg0.N) : (dat0 V c).after 9 t = out0_9 (iblk0 V c 1 t) := by dsimp only [dat0]
theorem after0_10 (c : Dev nD) (t : Fin cfg0.N) : (dat0 V c).after 10 t = out0_10 (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body on whole memrefs -/

/-- The body's one branch, on the grid coordinate: taken at the first stripe only. -/
abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (by decide +kernel : ∀ t : Fin grid0.N, cond0 (grid0.coords t) ↔ t.val = 0)

/-- Each store covers the buffer it stores into. -/
theorem cover0_X (p0 : Vec F S4096x256 .f32) (y : S4096x256.Idx) :
    ∃ pc ∈ ([⟨rX0, p0⟩] : List (View.Piece (Elt F) S4096x256 .f32)), y ∈ pc.1.set :=
  View.cover_of_tiled [⟨rX0, p0⟩] S4096x256.size (by rfl) y
theorem cover0_W (p0 : Vec F S256x256 .f32) (y : S256x256.Idx) :
    ∃ pc ∈ ([⟨rW0, p0⟩] : List (View.Piece (Elt F) S256x256 .f32)), y ∈ pc.1.set :=
  View.cover_of_tiled [⟨rW0, p0⟩] S256x256.size (by rfl) y
theorem cover0_A (p0 : Vec F S256x4096 .bf16) (y : S256x4096.Idx) :
    ∃ pc ∈ ([⟨rA0, p0⟩] : List (View.Piece (Elt F) S256x4096 .bf16)), y ∈ pc.1.set :=
  View.cover_of_tiled [⟨rA0, p0⟩] S256x4096.size (by rfl) y

set_option maxHeartbeats 4000000 in
/-- The body at a later stripe (the branch not taken): the inputs and the scratch at read contents, the three outputs
    at anything, run to the continuation with the inputs and the scratch as they were and each output at its store. -/
theorem sound_kernel0_later (c : Dev nD) (E : Set ℕ) (i : grid0.Coords) (hc : ¬cond0 i)
    (a1 : Memref sig .tc .vmem S4096x256 .f32) (h1 : a1.IsWhole) (a2 : Memref sig .tc .vmem S256x4096 .f32) (h2 : a2.IsWhole)
    (a3 : Memref sig .tc .vmem S256x4096 .f32) (h3 : a3.IsWhole) (a4 : Memref sig .tc .vmem S256x256 .f32) (h4 : a4.IsWhole)
    (a5 : Memref sig .tc .vmem S1x256 .f32) (h5 : a5.IsWhole) (a6 : Memref sig .tc .vmem S256x256 .f32) (h6 : a6.IsWhole)
    (a7 : Memref sig .tc .vmem S256x256 .f32) (h7 : a7.IsWhole) (a8 : Memref sig .tc .vmem S1x256 .f32) (h8 : a8.IsWhole)
    (a9 : Memref sig .tc .vmem S256x256 .f32) (h9 : a9.IsWhole) (a10 : Memref sig .tc .vmem S256x4096 .bf16) (h10 : a10.IsWhole)
    (a11 : Memref sig .tc .vmem S256x4096 .bf16) (h11 : a11.IsWhole) (a12 : Memref sig .tc .vmem S4096x256 .f32) (h12 : a12.IsWhole)
    (x : Vec F S4096x256 .f32) (ap an : Vec F S256x4096 .f32) (wi : Vec F S256x256 .f32) (bi : Vec F S1x256 .f32)
    (wpos wneg : Vec F S256x256 .f32) (b : Vec F S1x256 .f32) (s : Vec F S4096x256 .f32) (K : PUnit → sProp 𝕄) :
    iprop(owns (c : Thread nD τ) a1 fullShare x ∗ owns (c : Thread nD τ) a2 fullShare ap ∗ owns (c : Thread nD τ) a3 fullShare an
        ∗ owns (c : Thread nD τ) a4 fullShare wi ∗ owns (c : Thread nD τ) a5 fullShare bi ∗ owns (c : Thread nD τ) a6 fullShare wpos
        ∗ owns (c : Thread nD τ) a7 fullShare wneg ∗ owns (c : Thread nD τ) a8 fullShare b
        ∗ (∃ d, owns (c : Thread nD τ) a9 fullShare d) ∗ (∃ d, owns (c : Thread nD τ) a10 fullShare d) ∗ (∃ d, owns (c : Thread nD τ) a11 fullShare d)
        ∗ owns (c : Thread nD τ) a12 fullShare s
        ∗ (iprop(owns (c : Thread nD τ) a1 fullShare x ∗ owns (c : Thread nD τ) a2 fullShare ap ∗ owns (c : Thread nD τ) a3 fullShare an
        ∗ owns (c : Thread nD τ) a4 fullShare wi ∗ owns (c : Thread nD τ) a5 fullShare bi ∗ owns (c : Thread nD τ) a6 fullShare wpos
        ∗ owns (c : Thread nD τ) a7 fullShare wneg ∗ owns (c : Thread nD τ) a8 fullShare b
            ∗ owns (c : Thread nD τ) a9 fullShare (out0_8 ap an s wpos wneg b) ∗ owns (c : Thread nD τ) a10 fullShare (out0_9 ap)
            ∗ owns (c : Thread nD τ) a11 fullShare (out0_10 an) ∗ owns (c : Thread nD τ) a12 fullShare s) -∗ K ⟨⟩))
      ⊢ wp frame (wpE (defs₀ (F := F)) Variants.none c none) E (cc0__layer0_kernel i a1 h1 a2 h2 a3 h3 a4 h4 a5 h5 a6 h6 a7 h7 a8 h8 a9 h9 a10 h10 a11 h11 a12 h12) K := by
  simp only [cc0__layer0_kernel_eq_skeleton]; unfold cc0__layer0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
  subst hf1; subst hf2; subst hf3; subst hf4; subst hf5; subst hf6; subst hf7; subst hf8; subst hf12
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_W _)
  isplitl [H10]
  · iexists _; isplitr
    swap; · iexact H10
    ipureintro
    exact View.read_writes_eq_canon _ _ _ (cover0_A _)
  isplitl [H11]
  · iexists _; isplitr
    swap; · iexact H11
    ipureintro
    exact View.read_writes_eq_canon _ _ _ (cover0_A _)
  iexists f12; isplitr; · ipureintro; rfl
  iexact H12

set_option maxHeartbeats 4000000 in
/-- The body at the first stripe (the branch taken): the inputs at read contents, the scratch and the three outputs at
    anything, run to the continuation with the inputs as they were, the scratch at the projected features of all rows
    and each output at its store (the layer's stripe from that scratch). -/
theorem sound_kernel0_first (c : Dev nD) (E : Set ℕ) (i : grid0.Coords) (hc : cond0 i)
    (a1 : Memref sig .tc .vmem S4096x256 .f32) (h1 : a1.IsWhole) (a2 : Memref sig .tc .vmem S256x4096 .f32) (h2 : a2.IsWhole)
    (a3 : Memref sig .tc .vmem S256x4096 .f32) (h3 : a3.IsWhole) (a4 : Memref sig .tc .vmem S256x256 .f32) (h4 : a4.IsWhole)
    (a5 : Memref sig .tc .vmem S1x256 .f32) (h5 : a5.IsWhole) (a6 : Memref sig .tc .vmem S256x256 .f32) (h6 : a6.IsWhole)
    (a7 : Memref sig .tc .vmem S256x256 .f32) (h7 : a7.IsWhole) (a8 : Memref sig .tc .vmem S1x256 .f32) (h8 : a8.IsWhole)
    (a9 : Memref sig .tc .vmem S256x256 .f32) (h9 : a9.IsWhole) (a10 : Memref sig .tc .vmem S256x4096 .bf16) (h10 : a10.IsWhole)
    (a11 : Memref sig .tc .vmem S256x4096 .bf16) (h11 : a11.IsWhole) (a12 : Memref sig .tc .vmem S4096x256 .f32) (h12 : a12.IsWhole)
    (x : Vec F S4096x256 .f32) (ap an : Vec F S256x4096 .f32) (wi : Vec F S256x256 .f32) (bi : Vec F S1x256 .f32)
    (wpos wneg : Vec F S256x256 .f32) (b : Vec F S1x256 .f32) (K : PUnit → sProp 𝕄) :
    iprop(owns (c : Thread nD τ) a1 fullShare x ∗ owns (c : Thread nD τ) a2 fullShare ap ∗ owns (c : Thread nD τ) a3 fullShare an
        ∗ owns (c : Thread nD τ) a4 fullShare wi ∗ owns (c : Thread nD τ) a5 fullShare bi ∗ owns (c : Thread nD τ) a6 fullShare wpos
        ∗ owns (c : Thread nD τ) a7 fullShare wneg ∗ owns (c : Thread nD τ) a8 fullShare b
        ∗ (∃ d, owns (c : Thread nD τ) a9 fullShare d) ∗ (∃ d, owns (c : Thread nD τ) a10 fullShare d) ∗ (∃ d, owns (c : Thread nD τ) a11 fullShare d)
        ∗ (∃ d, owns (c : Thread nD τ) a12 fullShare d)
        ∗ (iprop(owns (c : Thread nD τ) a1 fullShare x ∗ owns (c : Thread nD τ) a2 fullShare ap ∗ owns (c : Thread nD τ) a3 fullShare an
        ∗ owns (c : Thread nD τ) a4 fullShare wi ∗ owns (c : Thread nD τ) a5 fullShare bi ∗ owns (c : Thread nD τ) a6 fullShare wpos
        ∗ owns (c : Thread nD τ) a7 fullShare wneg ∗ owns (c : Thread nD τ) a8 fullShare b
            ∗ owns (c : Thread nD τ) a9 fullShare (out0_8 ap an (sc0 x wi bi) wpos wneg b) ∗ owns (c : Thread nD τ) a10 fullShare (out0_9 ap)
            ∗ owns (c : Thread nD τ) a11 fullShare (out0_10 an) ∗ owns (c : Thread nD τ) a12 fullShare (sc0 x wi bi)) -∗ K ⟨⟩))
      ⊢ wp frame (wpE (defs₀ (F := F)) Variants.none c none) E (cc0__layer0_kernel i a1 h1 a2 h2 a3 h3 a4 h4 a5 h5 a6 h6 a7 h7 a8 h8 a9 h9 a10 h10 a11 h11 a12 h12) K := by
  simp only [cc0__layer0_kernel_eq_skeleton]; unfold cc0__layer0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1; subst hf2; subst hf3; subst hf4; subst hf5; subst hf6; subst hf7; subst hf8
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [View.readCov_eq_canon_ld _ _ _ (cover0_X _)]
    exact View.read_writes_eq_canon _ _ _ (cover0_W _)
  isplitl [H10]
  · iexists _; isplitr
    swap; · iexact H10
    ipureintro
    exact View.read_writes_eq_canon _ _ _ (cover0_A _)
  isplitl [H11]
  · iexists _; isplitr
    swap; · iexact H11
    ipureintro
    exact View.read_writes_eq_canon _ _ _ (cover0_A _)
  iexists _; isplitr
  swap; · iexact H12
  ipureintro
  sl_unfold_words
  exact View.read_writes_eq_canon _ _ _ (cover0_X _)

/-! ## The invariant at a position -/

/-- Before the first point the invariant is what the launch hands over. -/
theorem Phi0_zero (c : Dev nD) (k : Fin (cfg0.N + 1)) (hk : k.val = 0) :
    (dat0 V c).Φ k = (Pipeline.ΦA spec0 c : sProp 𝕄) := by
  dsimp only [dat0]; unfold Phi0; rw [if_pos hk]

/-- From the first point on it holds the scratch at its one fixed array. -/
theorem Phi0_pos (c : Dev nD) (k : Fin (cfg0.N + 1)) (hk : k.val ≠ 0) :
    (dat0 V c).Φ k = iprop(owns (c : Thread nD τ) scr0 fullShare (hS V c)
      ∗ Pipeline.scopedRestBut (Ix := Unit) (Name := ℕ) (U := UR sig nD τ) (Lvl := ℕ) (Val := Elt F) spec0 c [cc0_scratch0] ∗ ∃ r, prngReg c r) := by
  dsimp only [dat0]; unfold Phi0; rw [if_neg hk]

/-- The scoped rest with the scratch taken out of it: the scratch as a whole memref owned at some contents, the
    other scoped buffers unopened, the generator register. -/
theorem PhiA0_split (c : Dev nD) :
    (Pipeline.ΦA spec0 c : sProp 𝕄)
      = iprop(((∃ d, owns (c : Thread nD τ) scr0 fullShare d)
          ∗ Pipeline.scopedRestBut (Ix := Unit) (Name := ℕ) (U := UR sig nD τ) (Lvl := ℕ) (Val := Elt F) spec0 c [cc0_scratch0])
          ∗ ∃ r, prngReg c r) := by
  unfold Pipeline.ΦA
  rw [Pipeline.scopedRest_split_of_list spec0 c [cc0_scratch0] (by decide) (by decide)]
  simp only [bigSepL_singleton, scr0, owns_whole]; try rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8, after0_9, after0_10,
    Phi0_pos V c t.succ (Nat.succ_ne_zero t.val : t.succ.val ≠ 0)]
  by_cases hz : t.val = 0
  · -- the first stripe: the scratch comes out of the scoped rest at anything and is left at the projected features
    have ht : t = t0_0 := Fin.ext hz
    have hSt : hS V c = sc0 (iblk0 V c 0 t) (iblk0 V c 3 t) (iblk0 V c 4 t) := by rw [ht]; rfl
    rw [Phi0_zero V c t.castSucc (hz : t.castSucc.val = 0), PhiA0_split, hSt]
    iintro ⟨⟨⟨⟨%ds, HS⟩, HR⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_first c Set.univ (grid0.coords t) ((hcond0 t).2 hz) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexists _; iexact HS
    iintro ⟨H0, H1, H2, H3, H4, H5, H6, H7, H8, H9, H10, HS⟩
    isplitl [HS HR Hr]
    · isplitl [HS]; · iexact HS
      isplitl [HR]; · iexact HR
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · -- a later stripe: the scratch is read and left as it was
    rw [Phi0_pos V c t.castSucc (hz : t.castSucc.val ≠ 0)]
    iintro ⟨⟨HS, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_later c Set.univ (grid0.coords t) (fun h => hz ((hcond0 t).1 h)) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (hS V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS HR Hr]
    · isplitl [HS]; · iexact HS
      isplitl [HR]; · iexact HR
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- What the launch hands the region is the invariant before the first point. -/
theorem hin0 (c : Dev nD) : Pipeline.ΦA spec0 c ⊢ (dat0 V c).Φ 0 := by
  rw [Phi0_zero V c 0 rfl]

/-- After the last point the invariant gives the scoped rest and the generator register back: the scratch's contents
    are forgotten. -/
theorem hout0 (c : Dev nD) : (dat0 V c).Φ (Fin.last cfg0.N) ⊢ Pipeline.ΦA spec0 c := by
  have hlast : (Fin.last cfg0.N).val ≠ 0 := by
    show grid0.N ≠ 0
    rw [N_0]; decide
  rw [Phi0_pos V c (Fin.last cfg0.N) hlast, PhiA0_split]
  iintro ⟨HS, HR, Hr⟩
  isplitl [HS HR]
  · isplitl [HS]; · iexists _; iexact HS
    iexact HR
  iexact Hr

/-- The body obligation at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
import proofs.«155376_g26603027432194_cont_9to1_1414_9_alg».proof.Proof.Gen.KernelIdeal.Launch
import proofs.«155376_g26603027432194_cont_9to1_1414_9_alg».proof.Proof.Gen.KernelIdeal.Skeleton
import proofs.«155376_g26603027432194_cont_9to1_1414_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (layer 1): one fused stripe pass per grid point

Every operand is staged by the pipeline; the body loads the six input blocks whole, computes
`tanh((Ap · h) · Wp + (An · h) · Wn + b)` for a stripe of 512 rows and stores the stripe whole. Nothing is carried
between points, so what the output's staging buffer holds after a point is one pure function of that point's
input blocks. Everything here is stated at a parameter `V`: the buffers' contents when the region is entered. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there
or kept it from the point before (the index map did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/
abbrev rA1 : Rect S512x4096 := Rect.unit (s := S512x4096) ![0, 0] S512x4096.size inb_S512x4096_S512x4096_0_0
abbrev rH1 : Rect S4096x256 := Rect.unit (s := S4096x256) ![0, 0] S4096x256.size inb_S4096x256_S4096x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0
abbrev rO1 : Rect S512x256 := Rect.unit (s := S512x256) ![0, 0] S512x256.size inb_S512x256_S512x256_0_0

/-- The output stripe's staging buffer after the body, from the six input blocks (positive adjacency stripe,
    negative adjacency stripe, the features, the two transposed weights, the summed bias): its one store. -/
def out1_6 (ap an : Vec F S512x4096 .bf16) (h : Vec F S4096x256 .f32) (wpos wneg : Vec F S256x256 .f32) (b : Vec F S1x256 .f32) : Vec F S512x256 .f32 :=
  View.canon [⟨rO1, k1_pay1 (View.ld h rH1) (View.ld ap rA1) (View.ld an rA1) (View.ld wpos rW1) (View.ld wneg rW1) (View.ld b rB1)⟩]

/-- The one store covers the staging buffer. -/
theorem cover1_6 (p0 : Vec F S512x256 .f32) (y : S512x256.Idx) :
    ∃ pc ∈ ([⟨rO1, p0⟩] : List (View.Piece (Elt F) S512x256 .f32)), y ∈ pc.1.set :=
  View.cover_of_tiled [⟨rO1, p0⟩] S512x256.size (by rfl) y

set_option maxHeartbeats 4000000 in
/-- The body on whole staging memrefs: the inputs at read contents, the output at anything, run to the continuation
    with the inputs as they were and the output at `out1_6` of them. -/
theorem sound_kernel1 (c : Dev nD) (E : Set ℕ) (i : grid1.Coords)
    (a1 : Memref sig .tc .vmem S512x4096 .bf16) (h1 : a1.IsWhole) (a2 : Memref sig .tc .vmem S512x4096 .bf16) (h2 : a2.IsWhole)
    (a3 : Memref sig .tc .vmem S4096x256 .f32) (h3 : a3.IsWhole) (a4 : Memref sig .tc .vmem S256x256 .f32) (h4 : a4.IsWhole)
    (a5 : Memref sig .tc .vmem S256x256 .f32) (h5 : a5.IsWhole) (a6 : Memref sig .tc .vmem S1x256 .f32) (h6 : a6.IsWhole)
    (a7 : Memref sig .tc .vmem S512x256 .f32) (h7 : a7.IsWhole)
    (ap an : Vec F S512x4096 .bf16) (h : Vec F S4096x256 .f32) (wpos wneg : Vec F S256x256 .f32) (b : Vec F S1x256 .f32) (K : PUnit → sProp 𝕄) :
    iprop(owns (c : Thread nD τ) a1 fullShare ap ∗ owns (c : Thread nD τ) a2 fullShare an ∗ owns (c : Thread nD τ) a3 fullShare h
        ∗ owns (c : Thread nD τ) a4 fullShare wpos ∗ owns (c : Thread nD τ) a5 fullShare wneg ∗ owns (c : Thread nD τ) a6 fullShare b
        ∗ (∃ d, owns (c : Thread nD τ) a7 fullShare d)
        ∗ (iprop(owns (c : Thread nD τ) a1 fullShare ap ∗ owns (c : Thread nD τ) a2 fullShare an ∗ owns (c : Thread nD τ) a3 fullShare h
            ∗ owns (c : Thread nD τ) a4 fullShare wpos ∗ owns (c : Thread nD τ) a5 fullShare wneg ∗ owns (c : Thread nD τ) a6 fullShare b
            ∗ owns (c : Thread nD τ) a7 fullShare (out1_6 ap an h wpos wneg b)) -∗ K ⟨⟩))
      ⊢ wp frame (wpE (defs₀ (F := F)) Variants.none c none) E (cc1__layer1_kernel i a1 h1 a2 h2 a3 h3 a4 h4 a5 h5 a6 h6 a7 h7) K := by
  simp only [cc1__layer1_kernel_eq_skeleton]; unfold cc1__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-! ## The proof data -/

/-- The proof data of the second pallas_call on core `c`: the arrays as the region finds them; after the body at
    point `t` each input's buffer at its block and the output's at `out1_6` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
import proofs.«155376_g26603027432194_cont_9to1_1414_9_alg».proof.Proof.Gen.KernelIdeal.Launch
import proofs.«155376_g26603027432194_cont_9to1_1414_9_alg».proof.Proof.Gen.KernelIdeal.Skeleton
import proofs.«155376_g26603027432194_cont_9to1_1414_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155376_g26603027432194_cont_9to1_1414_9_alg».proof.Proof.Gen.KernelIdeal.Regions
import proofs.«155376_g26603027432194_cont_9to1_1414_9_alg».proof.Proof.KI.Region0
import proofs.«155376_g26603027432194_cont_9to1_1414_9_alg».proof.Proof.KI.Region1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: host operations, the first pallas_call, host operations, the second pallas_call

The buffers' contents at each boundary are a fold from the launch memory: a host stretch applies its operations; a
pallas_call leaves each of its arrays at what the write-backs of its proof data leave and every other buffer as
entered. The run ends with every unscoped buffer at the last boundary's contents; the arguments are written by no
stretch and are inputs (or bypass) of both regions, so they read back as launched. -/

variable (m : (ℓ : Loc nD τ sig) → Buf (Elt F) ℓ)

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- A host stretch leaves the buffers it does not write. -/
theorem W1_of (c : Dev nD) (b : Ref sig .tc) (h : b ∉ hostOps0_W) : W1 m c (Proc.devRef .tc b) = W0 m c (Proc.devRef .tc b) :=
  StableHlo.after_of_writes_sub hostOps0 _ hostOps0_writes h
theorem W3_of (c : Dev nD) (b : Ref sig .tc) (h : b ∉ hostOps1_W) : W3 m c (Proc.devRef .tc b) = W2 m c (Proc.devRef .tc b) :=
  StableHlo.after_of_writes_sub hostOps1 _ hostOps1_writes h

/-! ### The arguments end as launched -/
theorem W4_main_arg0 (c : Dev nD) : W4 m c (Proc.devRef .tc main_arg0) = m ((c : Thread nD τ).loc main_arg0) :=
  (W4_of_ne m c main_arg0 (by decide)).trans <| (W3_of m c main_arg0 (by decide)).trans <|
    ((W2_arr m c 0).trans (((dat0 (E1 m) c).arrAt_in 0 rfl _).trans (A_eq0 (E1 m) c 0))).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <|
    ((W2_arr m c 1).trans (((dat0 (E1 m) c).arrAt_in 1 rfl _).trans (A_eq0 (E1 m) c 1))).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <|
    ((W2_arr m c 2).trans (((dat0 (E1 m) c).arrAt_in 2 rfl _).trans (A_eq0 (E1 m) c 2))).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <|
    (W2_of_ne m c main_arg3 (by decide)).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <|
    (W2_of_ne m c main_arg4 (by decide)).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <|
    (W2_of_ne m c main_arg5 (by decide)).trans <| (W1_of m c main_arg5 (by decide)).trans rfl
theorem W4_main_arg6 (c : Dev nD) : W4 m c (Proc.devRef .tc main_arg6) = m ((c : Thread nD τ).loc main_arg6) :=
  (W4_of_ne m c main_arg6 (by decide)).trans <| (W3_of m c main_arg6 (by decide)).trans <|
    (W2_of_ne m c main_arg6 (by decide)).trans <| (W1_of m c main_arg6 (by decide)).trans rfl
theorem W4_main_arg7 (c : Dev nD) : W4 m c (Proc.devRef .tc main_arg7) = m ((c : Thread nD τ).loc main_arg7) :=
  (W4_of_ne m c main_arg7 (by decide)).trans <| (W3_of m c main_arg7 (by decide)).trans <|
    (W2_of_ne m c main_arg7 (by decide)).trans <| (W1_of m c main_arg7 (by decide)).trans rfl
theorem W4_main_arg8 (c : Dev nD) : W4 m c (Proc.devRef .tc main_arg8) = m ((c : Thread nD τ).loc main_arg8) :=
  (W4_of_ne m c main_arg8 (by decide)).trans <| (W3_of m c main_arg8 (by decide)).trans <|
    (W2_of_ne m c main_arg8 (by decide)).trans <| (W1_of m c main_arg8 (by decide)).trans rfl
theorem W4_main_arg9 (c : Dev nD) : W4 m c (Proc.devRef .tc main_arg9) = m ((c : Thread nD τ).loc main_arg9) :=
  (W4_of_ne m c main_arg9 (by decide)).trans <| (W3_of m c main_arg9 (by decide)).trans <|
    (W2_of_ne m c main_arg9 (by decide)).trans <| (W1_of m c main_arg9 (by decide)).trans rfl
theorem W4_main_arg10 (c : Dev nD) : W4 m c (Proc.devRef .tc main_arg10) = m ((c : Thread nD τ).loc main_arg10) :=
  (W4_of_ne m c main_arg10 (by decide)).trans <| (W3_of m c main_arg10 (by decide)).trans <|
    (W2_of_ne m c main_arg10 (by decide)).trans <| (W1_of m c main_arg10 (by decide)).trans rfl
theorem W4_main_arg11 (c : Dev nD) : W4 m c (Proc.devRef .tc main_arg11) = m ((c : Thread nD τ).loc main_arg11) :=
  (W4_of_ne m c main_arg11 (by decide)).trans <| (W3_of m c main_arg11 (by decide)).trans <|
    (W2_of_ne m c main_arg11 (by decide)).trans <| (W1_of m c main_arg11 (by decide)).trans rfl
theorem W4_main_arg12 (c : Dev nD) : W4 m c (Proc.devRef .tc main_arg12) = m ((c : Thread nD τ).loc main_arg12) :=
  (W4_of_ne m c main_arg12 (by decide)).trans <| (W3_of m c main_arg12 (by decide)).trans <|
    (W2_of_ne m c main_arg12 (by decide)).trans <| (W1_of m c main_arg12 (by decide)).trans rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m c) ∗ ∃ r, prngReg c r)

set_option backward.isDefEq.respectTransparency.types false in
/-- The first pallas_call over the thread state "every unscoped buffer whole at the boundary's contents, the
    generator register at some state, nothing owed": its arrays are split out of the unscoped buffers on entry and put
    back at what the write-backs leave on exit; the scoped rest and the generator register go into the body's
    invariant and come back; the kernel has no semaphore of its own. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (Ix := Unit) (Name := ℕ) (U := UR sig nD τ) (Lvl := ℕ) (pcfgs (F := F) 0).pre c (fun _ => fullShare) (adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state "every unscoped buffer whole at the boundary's contents, the
    generator register at some state, nothing owed": its arrays are split out of the unscoped buffers on entry and put
    back at what the write-backs leave on exit; the scoped rest and the generator register go into the body's
    invariant and come back; the kernel has no semaphore of its own. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (E3 m c) (E4 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m) ]
theorem main_runH (c : Dev nD) : main (F := F) c = Pipeline.Seg.run (segsH m) := (main_chain c).trans (by chain_rfl)

set_option backward.isDefEq.respectTransparency.types false in
/-- From any memory with zero counters every weakly fair execution of @main terminates, nothing faulting, and in every
    final state each unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_ucH main_arg0 (by decide))).trans (W4_main_arg0 m c),
    (h c _ (mem_ucH main_arg1 (by decide))).trans (W4_main_arg1 m c),
    (h c _ (mem_ucH main_arg2 (by decide))).trans (W4_main_arg2 m c),
    (h c _ (mem_ucH main_arg3 (by decide))).trans (W4_main_arg3 m c),
    (h c _ (mem_ucH main_arg4 (by decide))).trans (W4_main_arg4 m c),
    (h c _ (mem_ucH main_arg5 (by decide))).trans (W4_main_arg5 m c),
    (h c _ (mem_ucH main_arg6 (by decide))).trans (W4_main_arg6 m c),
    (h c _ (mem_ucH main_arg7 (by decide))).trans (W4_main_arg7 m c),
    (h c _ (mem_ucH main_arg8 (by decide))).trans (W4_main_arg8 m c),
    (h c _ (mem_ucH main_arg9 (by decide))).trans (W4_main_arg9 m c),
    (h c _ (mem_ucH main_arg10 (by decide))).trans (W4_main_arg10 m c),
    (h c _ (mem_ucH main_arg11 (by decide))).trans (W4_main_arg11 m c),
    (h c _ (mem_ucH main_arg12 (by decide))).trans (W4_main_arg12 m c)⟩) (run_all m ρ)

/-- The result buffer ends at what the second region's write-backs leave. -/
theorem result_all (ρ : Dev nD → PrngReg) : θ_run defs (onTc (τ := τ) (main (F := F))) ⟨m, fun _ => 0, ρ⟩ (fun r => ∀ c : Dev nD,
      r.2.mem ((c.tc : Thread nD τ).loc main_v0) = (dat1 (E3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_ucH main_v0 (by decide))).trans (W4_arr m c 6),
    (h c _ (mem_ucH main_arg0 (by decide))).trans (W4_main_arg0 m c),
    (h c _ (mem_ucH main_arg1 (by decide))).trans (W4_main_arg1 m c),
    (h c _ (mem_ucH main_arg2 (by decide))).trans (W4_main_arg2 m c),
    (h c _ (mem_ucH main_arg3 (by decide))).trans (W4_main_arg3 m c),
    (h c _ (mem_ucH main_arg4 (by decide))).trans (W4_main_arg4 m c),
    (h c _ (mem_ucH main_arg5 (by decide))).trans (W4_main_arg5 m c),
    (h c _ (mem_ucH main_arg6 (by decide))).trans (W4_main_arg6 m c),
    (h c _ (mem_ucH main_arg7 (by decide))).trans (W4_main_arg7 m c),
    (h c _ (mem_ucH main_arg8 (by decide))).trans (W4_main_arg8 m c),
    (h c _ (mem_ucH main_arg9 (by decide))).trans (W4_main_arg9 m c),
    (h c _ (mem_ucH main_arg10 (by decide))).trans (W4_main_arg10 m c),
    (h c _ (mem_ucH main_arg11 (by decide))).trans (W4_main_arg11 m c),
    (h c _ (mem_ucH main_arg12 (by decide))).trans (W4_main_arg12 m c)⟩) (run_all m ρ)

end Cert.KernelIdeal.Hand

end
-- ==== Proof.Spec.lean ====
import Idealize.ShloMosaic.PureOps.Ideal
import Idealize.ShloMosaic.Lib.ValueIdx

/-! # The function both programs compute, over the extended reals

A signed two-layer graph convolution on 4096 nodes with 256 features: the input projection
`h₀ = tanh(x · WinT + b_in)`, then twice `h ↦ tanh((A₊ · h) · WpT + bp + (A₋ · h) · WnT + bn)`. Arrays are functions of
their indices; the weights enter already transposed (both programs transpose them first, by the same operation, so the
transposition is never opened); a bias enters as a function of the column. Sums over `Fin n` in the extended reals
are finite sums of a commutative monoid, so regrouping the two biases needs no finiteness. -/

noncomputable section

namespace Cert.Spec

open Idealize.ShloMosaic Idealize.ShloMosaic.ValueIdx
open scoped BigOperators

/-- Node features: 4096 rows of 256. -/
abbrev SX : Shape := ⟨2, ![4096, 256]⟩
/-- An adjacency matrix. -/
abbrev SA : Shape := ⟨2, ![4096, 4096]⟩
/-- A weight matrix. -/
abbrev SW : Shape := ⟨2, ![256, 256]⟩

/-- A features array from its entries by row and column. -/
def mk (f : Fin 4096 → Fin 256 → EReal) : SX.Idx → EReal :=
  fun i => f ⟨(i 0).val, (i 0).isLt⟩ ⟨(i 1).val, (i 1).isLt⟩

theorem mk_ix2 (f : Fin 4096 → Fin 256 → EReal) (r : Fin 4096) (j : Fin 256) : mk f (ix2 r j) = f r j := rfl

/-- The input projection's entry `(r, j)`: `tanh(Σₖ x[r,k] · wT[k,j] + b[j])`. -/
def proj (x : SX.Idx → EReal) (wT : SW.Idx → EReal) (b : Fin 256 → EReal) (r : Fin 4096) (j : Fin 256) : EReal :=
  Ideal.tanh ((∑ k : Fin 256, x (ix2 r k) * wT (ix2 k j)) + b j)

/-- One adjacency product's entry `(r, k)`: `Σₗ A[r,l] · h[l,k]`. -/
def agg (A : SA.Idx → EReal) (h : SX.Idx → EReal) (r : Fin 4096) (k : Fin 256) : EReal :=
  ∑ l : Fin 4096, A (ix2 r l) * h (ix2 l k)

/-- The transformed aggregate's entry `(r, j)`: `Σₖ (A · h)[r,k] · wT[k,j]`. -/
def aggW (A : SA.Idx → EReal) (h : SX.Idx → EReal) (wT : SW.Idx → EReal) (r : Fin 4096) (j : Fin 256) : EReal :=
  ∑ k : Fin 256, agg A h r k * wT (ix2 k j)

/-- A layer as the reference groups it: each branch takes its own bias, then the branches are added. -/
def layerR (Ap An : SA.Idx → EReal) (h : SX.Idx → EReal) (wpT : SW.Idx → EReal) (bp : Fin 256 → EReal)
    (wnT : SW.Idx → EReal) (bn : Fin 256 → EReal) (r : Fin 4096) (j : Fin 256) : EReal :=
  Ideal.tanh ((aggW Ap h wpT r j + bp j) + (aggW An h wnT r j + bn j))

/-- A layer as the kernel groups it: the branches are added, then one bias (the sum of the two, formed beforehand). -/
def layerK (Ap An : SA.Idx → EReal) (h : SX.Idx → EReal) (wpT wnT : SW.Idx → EReal) (bs : Fin 256 → EReal)
    (r : Fin 4096) (j : Fin 256) : EReal :=
  Ideal.tanh ((aggW Ap h wpT r j + aggW An h wnT r j) + bs j)

/-- The two groupings agree when the kernel's bias is the sum of the reference's two: addition of extended reals is
    commutative and associative (no cancellation is used, so infinities do no harm). -/
theorem layerK_eq_layerR (Ap An : SA.Idx → EReal) (h : SX.Idx → EReal) (wpT : SW.Idx → EReal) (bp : Fin 256 → EReal)
    (wnT : SW.Idx → EReal) (bn : Fin 256 → EReal) :
    layerK Ap An h wpT wnT (fun j => bp j + bn j) = layerR Ap An h wpT bp wnT bn := by
  funext r j
  unfold layerK layerR
  rw [add_add_add_comm]

/-- The whole function: both layers over the projection, in the reference's grouping. -/
def G (x : SX.Idx → EReal) (Ap An : SA.Idx → EReal) (winT : SW.Idx → EReal) (bin : Fin 256 → EReal)
    (wp0T : SW.Idx → EReal) (bp0 : Fin 256 → EReal) (wn0T : SW.Idx → EReal) (bn0 : Fin 256 → EReal)
    (wp1T : SW.Idx → EReal) (bp1 : Fin 256 → EReal) (wn1T : SW.Idx → EReal) (bn1 : Fin 256 → EReal) : SX.Idx → EReal :=
  mk (layerR Ap An (mk (layerR Ap An (mk (proj x winT bin)) wp0T bp0 wn0T bn0)) wp1T bp1 wn1T bn1)

/-- The same in the kernel's grouping. -/
def GK (x : SX.Idx → EReal) (Ap An : SA.Idx → EReal) (winT : SW.Idx → EReal) (bin : Fin 256 → EReal)
    (wp0T wn0T : SW.Idx → EReal) (bs0 : Fin 256 → EReal) (wp1T wn1T : SW.Idx → EReal) (bs1 : Fin 256 → EReal) : SX.Idx → EReal :=
  mk (layerK Ap An (mk (layerK Ap An (mk (proj x winT bin)) wp0T wn0T bs0)) wp1T wn1T bs1)

theorem GK_eq_G (x : SX.Idx → EReal) (Ap An : SA.Idx → EReal) (winT : SW.Idx → EReal) (bin : Fin 256 → EReal)
    (wp0T : SW.Idx → EReal) (bp0 : Fin 256 → EReal) (wn0T : SW.Idx → EReal) (bn0 : Fin 256 → EReal)
    (wp1T : SW.Idx → EReal) (bp1 : Fin 256 → EReal) (wn1T : SW.Idx → EReal) (bn1 : Fin 256 → EReal) :
    GK x Ap An winT bin wp0T wn0T (fun j => bp0 j + bn0 j) wp1T wn1T (fun j => bp1 j + bn1 j)
      = G x Ap An winT bin wp0T bp0 wn0T bn0 wp1T bp1 wn1T bn1 := by
  unfold GK G
  rw [layerK_eq_layerR, layerK_eq_layerR]

end Cert.Spec

end
-- ==== Proof.KI.Value0.lean ====
import proofs.«155376_g26603027432194_cont_9to1_1414_9_alg».proof.Proof.KI.Region0
import proofs.«155376_g26603027432194_cont_9to1_1414_9_alg».proof.Proof.KI.Region1
import proofs.«155376_g26603027432194_cont_9to1_1414_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! # What the first pallas_call leaves in its three result arrays, at the ideal instance

Stripe `t` of the layer-0 features is the layer applied to rows `256 t … 256 t + 255` of the adjacencies and to the
projected features held in the scratch; the sixteen stripes tile the array. The two narrowed copies of the adjacencies
are the adjacencies themselves (a change of float format is the identity on the extended reals). -/

/-! ## The striped windows' blocks

Windows 1, 2 (the adjacencies), 8 (the features) and 9, 10 (the narrowed adjacencies) have block index `(t, 0)` at
point `t`: stripe `t` of 256 rows. -/

theorem hz0 : (![0, 0] : Fin 2 → Nat) = fun _ => 0 := funext fun a => by fin_cases a <;> rfl

/-- The printed index maps, decided over the sixteen points: a striped window's block index is `(t, 0)`. -/
theorem idx_facts0 : ∀ t : Fin cfg0.N,
    win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## The two narrowed adjacencies

A change of float format is the identity on the extended reals, so what point `t` writes back is stripe `t` of the
adjacency itself; the sixteen stripes tile the array. -/

/-- What point `t` writes back to the narrowed positive adjacency is stripe `t` of the positive adjacency. -/
theorem flushed0_9 (c : Dev nD) (t : Fin cfg0.N) :
    (dat0 V c).flushed 9 t = ((cfg0.win 9).blk t).view.read (Elt Ideal) (V c main_arg1 : S4096x4096.Idx → EReal) := by
  show (cfg0.win 9).cut (grid0.coords t) ((dat0 V c).after 9 t) = _
  rw [after0_9]
  unfold out0_9
  rw [View.canon_unit_zero hz0]
  simp only [View.ld_unit_zero (S := S256x4096) hz0]
  obtain ⟨e10, e11, -, -, -, -, e90, e91, -, -⟩ := idx_facts0 t
  funext j
  show V c main_arg1 (((cfg0.win 1).blk t).view.emb j) = V c main_arg1 (((cfg0.win 9).blk t).view.emb j)
  have h0 : ((cfg0.win 1).blk t).view.emb j = ((cfg0.win 9).blk t).view.emb j := by
    funext a; apply Fin.ext
    match a with
    | ⟨0, _⟩ => show win0_1.index t (0 : Fin 2) * 256 + 1 * (j 0).val = win0_9.index t (0 : Fin 2) * 256 + 1 * (j 0).val; rw [e10, e90]
    | ⟨1, _⟩ => show win0_1.index t (1 : Fin 2) * 4096 + 1 * (j 1).val = win0_9.index t (1 : Fin 2) * 4096 + 1 * (j 1).val; rw [e11, e91]
  rw [h0]

/-- An index of the array is in point `t`'s block iff each coordinate is in the block's range on its axis. -/
theorem mem_blk0_9 (t : Fin cfg0.N) (i : S4096x4096.Idx) :
    i ∈ ((cfg0.win 9).blk t).view.set ↔ ∀ a : Fin 2, win0_9.index t a * S256x4096.size a ≤ (i a).val ∧ (i a).val < win0_9.index t a * S256x4096.size a + S256x4096.size a := by
  show i ∈ ((View.whole main_call0_v6_1).slice (win0_9.rect t)).set ↔ _
  rw [View.set_slice_whole, Rect.mem_set_unit]
  exact Iff.rfl

/-- Row `r` lies in the stripe of point `r / 256`. -/
theorem tiled0_9 (i : S4096x4096.Idx) : ∃ t : Fin cfg0.N, (cfg0.win 9).flush t = true ∧ i ∈ ((cfg0.win 9).blk t).view.set := by
  have hi0 : (i 0).val < 4096 := (i 0).isLt
  have hi1 : (i 1).val < 4096 := (i 1).isLt
  have hN : cfg0.N = 16 := N_0
  let t : Fin cfg0.N := ⟨(i 0).val / 256, by rw [hN]; omega⟩
  obtain ⟨-, -, -, -, -, -, e90, e91, -, -⟩ := idx_facts0 t
  have ht : t.val = (i 0).val / 256 := rfl
  refine ⟨t, flush0_9 t, ?_⟩
  rw [mem_blk0_9]
  intro a
  match a with
  | ⟨0, _⟩ => show win0_9.index t (0 : Fin 2) * 256 ≤ (i 0).val ∧ (i 0).val < win0_9.index t (0 : Fin 2) * 256 + 256; rw [e90, ht]; omega
  | ⟨1, _⟩ => show win0_9.index t (1 : Fin 2) * 4096 ≤ (i 1).val ∧ (i 1).val < win0_9.index t (1 : Fin 2) * 4096 + 4096; rw [e91]; omega

/-- The narrowed positive adjacency is the positive adjacency. -/
theorem arr0_9 (c : Dev nD) : ((dat0 V c).arrAt 9 cfg0.N : S4096x4096.Idx → EReal) = V c main_arg1 :=
  (dat0 V c).arrAt_eq_of_cover 9 (V c main_arg1 : S4096x4096.Idx → EReal) (fun t _ => flushed0_9 V c t) tiled0_9

/-- What point `t` writes back to the narrowed negative adjacency is stripe `t` of the negative adjacency. -/
theorem flushed0_10 (c : Dev nD) (t : Fin cfg0.N) :
    (dat0 V c).flushed 10 t = ((cfg0.win 10).blk t).view.read (Elt Ideal) (V c main_arg2 : S4096x4096.Idx → EReal) := by
  show (cfg0.win 10).cut (grid0.coords t) ((dat0 V c).after 10 t) = _
  rw [after0_10]
  unfold out0_10
  rw [View.canon_unit_zero hz0]
  simp only [View.ld_unit_zero (S := S256x4096) hz0]
  obtain ⟨-, -, e20, e21, -, -, -, -, e100, e101⟩ := idx_facts0 t
  funext j
  show V c main_arg2 (((cfg0.win 2).blk t).view.emb j) = V c main_arg2 (((cfg0.win 10).blk t).view.emb j)
  have h0 : ((cfg0.win 2).blk t).view.emb j = ((cfg0.win 10).blk t).view.emb j := by
    funext a; apply Fin.ext
    match a with
    | ⟨0, _⟩ => show win0_2.index t (0 : Fin 2) * 256 + 1 * (j 0).val = win0_10.index t (0 : Fin 2) * 256 + 1 * (j 0).val; rw [e20, e100]
    | ⟨1, _⟩ => show win0_2.index t (1 : Fin 2) * 4096 + 1 * (j 1).val = win0_10.index t (1 : Fin 2) * 4096 + 1 * (j 1).val; rw [e21, e101]
  rw [h0]

/-- An index of the array is in point `t`'s block iff each coordinate is in the block's range on its axis. -/
theorem mem_blk0_10 (t : Fin cfg0.N) (i : S4096x4096.Idx) :
    i ∈ ((cfg0.win 10).blk t).view.set ↔ ∀ a : Fin 2, win0_10.index t a * S256x4096.size a ≤ (i a).val ∧ (i a).val < win0_10.index t a * S256x4096.size a + S256x4096.size a := by
  show i ∈ ((View.whole main_call0_v6_2).slice (win0_10.rect t)).set ↔ _
  rw [View.set_slice_whole, Rect.mem_set_unit]
  exact Iff.rfl

/-- Row `r` lies in the stripe of point `r / 256`. -/
theorem tiled0_10 (i : S4096x4096.Idx) : ∃ t : Fin cfg0.N, (cfg0.win 10).flush t = true ∧ i ∈ ((cfg0.win 10).blk t).view.set := by
  have hi0 : (i 0).val < 4096 := (i 0).isLt
  have hi1 : (i 1).val < 4096 := (i 1).isLt
  have hN : cfg0.N = 16 := N_0
  let t : Fin cfg0.N := ⟨(i 0).val / 256, by rw [hN]; omega⟩
  obtain ⟨-, -, -, -, -, -, -, -, e100, e101⟩ := idx_facts0 t
  have ht : t.val = (i 0).val / 256 := rfl
  refine ⟨t, flush0_10 t, ?_⟩
  rw [mem_blk0_10]
  intro a
  match a with
  | ⟨0, _⟩ => show win0_10.index t (0 : Fin 2) * 256 ≤ (i 0).val ∧ (i 0).val < win0_10.index t (0 : Fin 2) * 256 + 256; rw [e100, ht]; omega
  | ⟨1, _⟩ => show win0_10.index t (1 : Fin 2) * 4096 ≤ (i 1).val ∧ (i 1).val < win0_10.index t (1 : Fin 2) * 4096 + 4096; rw [e101]; omega

/-- The narrowed negative adjacency is the negative adjacency. -/
theorem arr0_10 (c : Dev nD) : ((dat0 V c).arrAt 10 cfg0.N : S4096x4096.Idx → EReal) = V c main_arg2 :=
  (dat0 V c).arrAt_eq_of_cover 10 (V c main_arg2 : S4096x4096.Idx → EReal) (fun t _ => flushed0_10 V c t) tiled0_10

/-! ## The three matrix products of the body, read at an index -/

theorem lhs_xw0_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_xw0_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_xw0_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_xw0_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- A [4096,256] × [256,256] product into a zero accumulator, read at row `r` and column `j`: the sum over the
    contracted axis of the operands' products. -/
theorem mm_xw0_apply (x : FVec Ideal S4096x256 .f32) (w : FVec Ideal S256x256 .f32) (r : Fin 4096) (j : Fin 256) :
    matmul (F := Ideal) dot_S4096x256_S256x256_S4096x256_1_0_0_1_n_n none x w (constant (F := Ideal) S4096x256 .f32 0x00000000#32) (ix2 r j)
      = ∑ k : Fin 256, x (ix2 r k) * w (ix2 k j) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r j) ((ValueIdx.contrEquiv1 dot_S4096x256_S256x256_S4096x256_1_0_0_1_n_n 256 rfl rfl).symm k) = ix2 r k := funext fun a => Fin.ext (by
    match a with
    | ⟨0, _⟩ => exact lhs_xw0_0 _ _
    | ⟨1, _⟩ => exact (lhs_xw0_1 _ _).trans hk)
  have er : dot_S4096x256_S256x256_S4096x256_1_0_0_1_n_n.rhsIdx (ix2 r j) ((ValueIdx.contrEquiv1 dot_S4096x256_S256x256_S4096x256_1_0_0_1_n_n 256 rfl rfl).symm k) = ix2 k j := funext fun a => Fin.ext (by
    match a with
    | ⟨0, _⟩ => exact (rhs_xw0_0 _ _).trans hk
    | ⟨1, _⟩ => exact rhs_xw0_1 _ _)
  rw [el, er]

theorem lhs_as0_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_as0_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_as0_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_as0_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- A [256,4096] × [4096,256] product into a zero accumulator, read at row `r` and column `j`: the sum over the
    contracted axis of the operands' products. -/
theorem mm_as0_apply (x : FVec Ideal S256x4096 .f32) (w : FVec Ideal S4096x256 .f32) (r : Fin 256) (j : Fin 256) :
    matmul (F := Ideal) dot_S256x4096_S4096x256_S256x256_1_0_0_1_n_n none x w (constant (F := Ideal) S256x256 .f32 0x00000000#32) (ix2 r j)
      = ∑ k : Fin 4096, x (ix2 r k) * w (ix2 k j) := by
  simp only [matmul]
  rw [Ideal.matmul_constant_zero_apply, ← Equiv.sum_comp (ValueIdx.contrEquiv1 dot_S256x4096_S4096x256_S256x256_1_0_0_1_n_n 4096 rfl rfl).symm]
  refine Finset.sum_congr rfl fun k _ => ?_
  have hk := ValueIdx.contrEquiv1_symm_val dot_S256x4096_S4096x256_S256x256_1_0_0_1_n_n 4096 rfl rfl k
  have el : dot_S256x4096_S4096x256_S256x256_1_0_0_1_n_n.lhsIdx (ix2 r j) ((ValueIdx.contrEquiv1 dot_S256x4096_S4096x256_S256x256_1_0_0_1_n_n 4096 rfl rfl).symm k) = ix2 r k := funext fun a => Fin.ext (by
    match a with
    | ⟨0, _⟩ => exact lhs_as0_0 _ _
    | ⟨1, _⟩ => exact (lhs_as0_1 _ _).trans hk)
  have er : dot_S256x4096_S4096x256_S256x256_1_0_0_1_n_n.rhsIdx (ix2 r j) ((ValueIdx.contrEquiv1 dot_S256x4096_S4096x256_S256x256_1_0_0_1_n_n 4096 rfl rfl).symm k) = ix2 k j := funext fun a => Fin.ext (by
    match a with
    | ⟨0, _⟩ => exact (rhs_as0_0 _ _).trans hk
    | ⟨1, _⟩ => exact rhs_as0_1 _ _)
  rw [el, er]

theorem lhs_hw0_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_hw0_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_hw0_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_hw0_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- A [256,256] × [256,256] product into a zero accumulator, read at row `r` and column `j`: the sum over the
    contracted axis of the operands' products. -/
theorem mm_hw0_apply (x : FVec Ideal S256x256 .f32) (w : FVec Ideal S256x256 .f32) (r : Fin 256) (j : Fin 256) :
    matmul (F := Ideal) dot_S256x256_S256x256_S256x256_1_0_0_1_n_n none x w (constant (F := Ideal) S256x256 .f32 0x00000000#32) (ix2 r j)
      = ∑ k : Fin 256, x (ix2 r k) * w (ix2 k j) := by
  simp only [matmul]
  rw [Ideal.matmul_constant_zero_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 r j) ((ValueIdx.contrEquiv1 dot_S256x256_S256x256_S256x256_1_0_0_1_n_n 256 rfl rfl).symm k) = ix2 r k := funext fun a => Fin.ext (by
    match a with
    | ⟨0, _⟩ => exact lhs_hw0_0 _ _
    | ⟨1, _⟩ => exact (lhs_hw0_1 _ _).trans hk)
  have er : dot_S256x256_S256x256_S256x256_1_0_0_1_n_n.rhsIdx (ix2 r j) ((ValueIdx.contrEquiv1 dot_S256x256_S256x256_S256x256_1_0_0_1_n_n 256 rfl rfl).symm k) = ix2 k j := funext fun a => Fin.ext (by
    match a with
    | ⟨0, _⟩ => exact (rhs_hw0_0 _ _).trans hk
    | ⟨1, _⟩ => exact rhs_hw0_1 _ _)
  rw [el, er]

/-- The bias row broadcast down the rows, read at an index: the bias at the column. -/
theorem bcast0_row_4096 (b : FVec Ideal S1x256 .f32) (r : Fin 4096) (j : Fin 256) :
    broadcastTo S4096x256 b broadcasts_S1x256_S4096x256 (ix2 r j) = b (ix2 0 j) :=
  broadcastTo_apply b broadcasts_S1x256_S4096x256 (ix2 r j) (ix2 0 j) (fun a => match a with
    | ⟨0, _⟩ => by show 0 = if (1 : Nat) = 1 then 0 else _; rw [if_pos rfl]
    | ⟨1, _⟩ => by show j.val = if (256 : Nat) = 1 then 0 else j.val; rw [if_neg (by decide)])

theorem bcast0_row_256 (b : FVec Ideal S1x256 .f32) (r : Fin 256) (j : Fin 256) :
    broadcastTo S256x256 b broadcasts_S1x256_S256x256 (ix2 r j) = b (ix2 0 j) :=
  broadcastTo_apply b broadcasts_S1x256_S256x256 (ix2 r j) (ix2 0 j) (fun a => match a with
    | ⟨0, _⟩ => by show 0 = if (1 : Nat) = 1 then 0 else _; rw [if_pos rfl]
    | ⟨1, _⟩ => by show j.val = if (256 : Nat) = 1 then 0 else j.val; rw [if_neg (by decide)])

/-! ## The two payloads at an index -/

/-- The projection's payload at row `r`, column `j`: `tanh(Σₖ x[r,k] · w[k,j] + b[0,j])`. -/
theorem pay0_1_apply (x : Vec Ideal S4096x256 .f32) (wi : Vec Ideal S256x256 .f32) (bi : Vec Ideal S1x256 .f32) (r : Fin 4096) (j : Fin 256) :
    k0_pay1 x wi bi (ix2 r j) = Ideal.tanh ((∑ k : Fin 256, x (ix2 r k) * wi (ix2 k j)) + bi (ix2 0 j)) := by
  unfold k0_pay1
  simp only [shapeCast_self]
  show Ideal.tanh (matmul (F := Ideal) dot_S4096x256_S256x256_S4096x256_1_0_0_1_n_n none x wi (constant (F := Ideal) S4096x256 .f32 0x00000000#32) (ix2 r j)
    + broadcastTo S4096x256 bi broadcasts_S1x256_S4096x256 (ix2 r j)) = _
  rw [mm_xw0_apply, bcast0_row_4096]

/-- The layer's payload at row `p` of the stripe, column `j`: each adjacency stripe times the features, times its
    weight; the two added, then the bias, then `tanh`. -/
theorem pay0_2_apply (ap an : Vec Ideal S256x4096 .f32) (s s' : Vec Ideal S4096x256 .f32) (wp wn : Vec Ideal S256x256 .f32) (b : Vec Ideal S1x256 .f32)
    (p : Fin 256) (j : Fin 256) :
    k0_pay2 ap an s s' wp wn b (ix2 p j)
      = Ideal.tanh (((∑ k : Fin 256, (∑ l : Fin 4096, ap (ix2 p l) * s (ix2 l k)) * wp (ix2 k j))
          + ∑ k : Fin 256, (∑ l : Fin 4096, an (ix2 p l) * s' (ix2 l k)) * wn (ix2 k j)) + b (ix2 0 j)) := by
  unfold k0_pay2
  simp only [shapeCast_self]
  show Ideal.tanh ((matmul (F := Ideal) dot_S256x256_S256x256_S256x256_1_0_0_1_n_n none
        (matmul (F := Ideal) dot_S256x4096_S4096x256_S256x256_1_0_0_1_n_n none ap s (constant (F := Ideal) S256x256 .f32 0x00000000#32)) wp
        (constant (F := Ideal) S256x256 .f32 0x00000000#32) (ix2 p j)
      + matmul (F := Ideal) dot_S256x256_S256x256_S256x256_1_0_0_1_n_n none
        (matmul (F := Ideal) dot_S256x4096_S4096x256_S256x256_1_0_0_1_n_n none an s' (constant (F := Ideal) S256x256 .f32 0x00000000#32)) wn
        (constant (F := Ideal) S256x256 .f32 0x00000000#32) (ix2 p j))
    + broadcastTo S256x256 b broadcasts_S1x256_S256x256 (ix2 p j)) = _
  rw [mm_hw0_apply, mm_hw0_apply, bcast0_row_256]
  simp only [mm_as0_apply]

/-! ## The input blocks read at an index

Windows 0, 3, 4, 5, 6, 7 have one block, the whole array; windows 1 and 2 have stripe `t` at point `t`. -/

/-- The printed index maps of the whole-array windows, decided over the sixteen points: block `(0, 0)`. -/
theorem idx_whole0 : ∀ t : Fin cfg0.N,
    win0_0.index t (0 : Fin 2) = 0 ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of stripe `t` is row `256 t + p` of the array. -/
def row0 (t : Fin cfg0.N) (p : Fin 256) : Fin 4096 :=
  ⟨256 * t.val + p.val, by have := t.isLt; have hN : cfg0.N = 16 := N_0; omega⟩

theorem iblk0_0 (c : Dev nD) (t : Fin cfg0.N) : (iblk0 V c 0 t : S4096x256.Idx → EReal) = V c main_arg0 := by
  obtain ⟨e0, e1, -⟩ := idx_whole0 t
  funext y
  show V c main_arg0 (((cfg0.win 0).blk t).view.emb y) = V c main_arg0 y
  refine congrArg _ (funext fun a => Fin.ext ?_)
  match a with
  | ⟨0, _⟩ => show win0_0.index t (0 : Fin 2) * 4096 + 1 * (y 0).val = (y 0).val; rw [e0]; omega
  | ⟨1, _⟩ => show win0_0.index t (1 : Fin 2) * 256 + 1 * (y 1).val = (y 1).val; rw [e1]; omega

theorem iblk0_3 (c : Dev nD) (t : Fin cfg0.N) : (iblk0 V c 3 t : S256x256.Idx → EReal) = V c main_call0_v0 := by
  obtain ⟨-, -, e0, e1, -⟩ := idx_whole0 t
  funext y
  show V c main_call0_v0 (((cfg0.win 3).blk t).view.emb y) = V c main_call0_v0 y
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

theorem iblk0_4 (c : Dev nD) (t : Fin cfg0.N) : (iblk0 V c 4 t : S1x256.Idx → EReal) = V c main_call0_v1 := by
  obtain ⟨-, -, -, -, e0, e1, -⟩ := idx_whole0 t
  funext y
  show V c main_call0_v1 (((cfg0.win 4).blk t).view.emb y) = V c main_call0_v1 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

theorem iblk0_5 (c : Dev nD) (t : Fin cfg0.N) : (iblk0 V c 5 t : S256x256.Idx → EReal) = V c main_call0_v2 := by
  obtain ⟨-, -, -, -, -, -, e0, e1, -⟩ := idx_whole0 t
  funext y
  show V c main_call0_v2 (((cfg0.win 5).blk t).view.emb y) = V c main_call0_v2 y
  refine congrArg _ (funext fun a => Fin.ext ?_)
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

theorem iblk0_6 (c : Dev nD) (t : Fin cfg0.N) : (iblk0 V c 6 t : S256x256.Idx → EReal) = V c main_call0_v3 := by
  obtain ⟨-, -, -, -, -, -, -, -, e0, e1, -⟩ := idx_whole0 t
  funext y
  show V c main_call0_v3 (((cfg0.win 6).blk t).view.emb y) = V c main_call0_v3 y
  refine congrArg _ (funext fun a => Fin.ext ?_)
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega

theorem iblk0_7 (c : Dev nD) (t : Fin cfg0.N) : (iblk0 V c 7 t : S1x256.Idx → EReal) = V c main_call0_v5 := by
  obtain ⟨-, -, -, -, -, -, -, -, -, -, e0, e1⟩ := idx_whole0 t
  funext y
  show V c main_call0_v5 (((cfg0.win 7).blk t).view.emb y) = V c main_call0_v5 y
  refine congrArg _ (funext fun a => Fin.ext ?_)
  match a with
  | ⟨0, _⟩ => show win0_7.index t (0 : Fin 2) * 1 + 1 * (y 0).val = (y 0).val; rw [e0]; omega
  | ⟨1, _⟩ => show win0_7.index t (1 : Fin 2) * 256 + 1 * (y 1).val = (y 1).val; rw [e1]; omega

/-- The positive adjacency's stripe `t` at row `p`, column `l`. -/
theorem iblk0_1_apply (c : Dev nD) (t : Fin cfg0.N) (p : Fin 256) (l : Fin 4096) :
    (iblk0 V c 1 t : S256x4096.Idx → EReal) (ix2 p l) = (V c main_arg1 : S4096x4096.Idx → EReal) (ix2 (row0 t p) l) := by
  obtain ⟨e0, e1, -⟩ := idx_facts0 t
  show V c main_arg1 (((cfg0.win 1).blk t).view.emb (ix2 p l)) = V c main_arg1 (ix2 (row0 t p) l)
  refine congrArg _ (funext fun a => Fin.ext ?_)
  match a with
  | ⟨0, _⟩ => show win0_1.index t (0 : Fin 2) * 256 + 1 * p.val = 256 * t.val + p.val; rw [e0]; omega
  | ⟨1, _⟩ => show win0_1.index t (1 : Fin 2) * 4096 + 1 * l.val = l.val; rw [e1]; omega

/-- The negative adjacency's stripe `t` at row `p`, column `l`. -/
theorem iblk0_2_apply (c : Dev nD) (t : Fin cfg0.N) (p : Fin 256) (l : Fin 4096) :
    (iblk0 V c 2 t : S256x4096.Idx → EReal) (ix2 p l) = (V c main_arg2 : S4096x4096.Idx → EReal) (ix2 (row0 t p) l) := by
  obtain ⟨-, -, e0, e1, -⟩ := idx_facts0 t
  show V c main_arg2 (((cfg0.win 2).blk t).view.emb (ix2 p l)) = V c main_arg2 (ix2 (row0 t p) l)
  refine congrArg _ (funext fun a => Fin.ext ?_)
  match a with
  | ⟨0, _⟩ => show win0_2.index t (0 : Fin 2) * 256 + 1 * p.val = 256 * t.val + p.val; rw [e0]; omega
  | ⟨1, _⟩ => show win0_2.index t (1 : Fin 2) * 4096 + 1 * l.val = l.val; rw [e1]; omega

/-! ## The layer-0 features -/

/-- The scratch from the first point on is the input projection of all rows. -/
theorem hS_eq (c : Dev nD) : (hS V c : S4096x256.Idx → EReal)
    = Cert.Spec.mk (Cert.Spec.proj (V c main_arg0) (V c main_call0_v0) (fun j => V c main_call0_v1 (ix2 0 j))) := by
  unfold hS sc0
  rw [View.canon_unit_zero hz0]
  simp only [View.ld_unit_zero (S := S4096x256) hz0, View.ld_unit_zero (S := S256x256) hz0, View.ld_unit_zero (S := S1x256) hz0]
  funext i
  obtain ⟨r, j, rfl⟩ : ∃ (r : Fin 4096) (j : Fin 256), i = ix2 r j := ⟨i 0, i 1, eq_ix2 i⟩
  refine (pay0_1_apply (iblk0 V c 0 t0_0) (iblk0 V c 3 t0_0) (iblk0 V c 4 t0_0) r j).trans ?_
  rw [Cert.Spec.mk_ix2, iblk0_0, iblk0_3, iblk0_4]
  rfl

/-- The array the layer-0 features window ends holding. -/
abbrev G0 (c : Dev nD) : S4096x256.Idx → EReal :=
  Cert.Spec.mk (Cert.Spec.layerK (V c main_arg1) (V c main_arg2)
    (Cert.Spec.mk (Cert.Spec.proj (V c main_arg0) (V c main_call0_v0) (fun j => V c main_call0_v1 (ix2 0 j))))
    (V c main_call0_v2) (V c main_call0_v3) (fun j => V c main_call0_v5 (ix2 0 j)))

/-- A block whose entry `(p, j)` is the array's entry `(256 t + p, j)` is what stripe `t` of the features window reads
    of that array. -/
theorem stripe0_8 (G : S4096x256.Idx → EReal) (X : S256x256.Idx → EReal) (t : Fin cfg0.N)
    (h : ∀ (p j : Fin 256), X (ix2 p j) = G (ix2 (row0 t p) j)) :
    (cfg0.win 8).cut (grid0.coords t) X = ((cfg0.win 8).blk t).view.read (Elt Ideal) G := by
  obtain ⟨-, -, -, -, e0, e1, -⟩ := idx_facts0 t
  funext y
  obtain ⟨p, j, rfl⟩ : ∃ (p : Fin 256) (j : Fin 256), y = ix2 p j := ⟨y 0, y 1, eq_ix2 y⟩
  show X (ix2 p j) = G (((cfg0.win 8).blk t).view.emb (ix2 p j))
  rw [h]
  refine congrArg _ (funext fun a => Fin.ext ?_)
  match a with
  | ⟨0, _⟩ => show 256 * t.val + p.val = win0_8.index t (0 : Fin 2) * 256 + 1 * p.val; rw [e0]; omega
  | ⟨1, _⟩ => show j.val = win0_8.index t (1 : Fin 2) * 256 + 1 * j.val; rw [e1]; omega

/-- What point `t` writes back to the features array is stripe `t` of the layer over the projection. -/
theorem flushed0_8 (c : Dev nD) (t : Fin cfg0.N) :
    (dat0 V c).flushed 8 t = ((cfg0.win 8).blk t).view.read (Elt Ideal) (G0 V c) := by
  show (cfg0.win 8).cut (grid0.coords t) ((dat0 V c).after 8 t) = _
  rw [after0_8]
  unfold out0_8
  rw [View.canon_unit_zero hz0]
  simp only [View.ld_unit_zero (S := S256x4096) hz0, View.ld_unit_zero (S := S4096x256) hz0, View.ld_unit_zero (S := S256x256) hz0, View.ld_unit_zero (S := S1x256) hz0]
  refine stripe0_8 (G0 V c) _ t fun p j => ?_
  refine (pay0_2_apply (iblk0 V c 1 t) (iblk0 V c 2 t) (hS V c) (hS V c) (iblk0 V c 5 t) (iblk0 V c 6 t) (iblk0 V c 7 t) p j).trans ?_
  rw [hS_eq, iblk0_5, iblk0_6, iblk0_7]
  simp only [iblk0_1_apply, iblk0_2_apply]
  rfl

/-- An index of the array is in point `t`'s block iff each coordinate is in the block's range on its axis. -/
theorem mem_blk0_8 (t : Fin cfg0.N) (i : S4096x256.Idx) :
    i ∈ ((cfg0.win 8).blk t).view.set ↔ ∀ a : Fin 2, win0_8.index t a * S256x256.size a ≤ (i a).val ∧ (i a).val < win0_8.index t a * S256x256.size a + S256x256.size a := by
  show i ∈ ((View.whole main_call0_v6_0).slice (win0_8.rect t)).set ↔ _
  rw [View.set_slice_whole, Rect.mem_set_unit]
  exact Iff.rfl

/-- Row `r` lies in the stripe of point `r / 256`. -/
theorem tiled0_8 (i : S4096x256.Idx) : ∃ t : Fin cfg0.N, (cfg0.win 8).flush t = true ∧ i ∈ ((cfg0.win 8).blk t).view.set := by
  have hi0 : (i 0).val < 4096 := (i 0).isLt
  have hi1 : (i 1).val < 256 := (i 1).isLt
  have hN : cfg0.N = 16 := N_0
  let t : Fin cfg0.N := ⟨(i 0).val / 256, by rw [hN]; omega⟩
  obtain ⟨-, -, -, -, e0, e1, -⟩ := idx_facts0 t
  have ht : t.val = (i 0).val / 256 := rfl
  refine ⟨t, flush0_8 t, ?_⟩
  rw [mem_blk0_8]
  intro a
  match a with
  | ⟨0, _⟩ => show win0_8.index t (0 : Fin 2) * 256 ≤ (i 0).val ∧ (i 0).val < win0_8.index t (0 : Fin 2) * 256 + 256; rw [e0, ht]; omega
  | ⟨1, _⟩ => show win0_8.index t (1 : Fin 2) * 256 ≤ (i 1).val ∧ (i 1).val < win0_8.index t (1 : Fin 2) * 256 + 256; rw [e1]; omega

/-- The layer-0 features array after the region: the kernel-grouped layer over the projection. -/
theorem arr0_8 (c : Dev nD) :
    ((dat0 V c).arrAt 8 cfg0.N : S4096x256.Idx → EReal)
      = Cert.Spec.mk (Cert.Spec.layerK (V c main_arg1) (V c main_arg2)
          (Cert.Spec.mk (Cert.Spec.proj (V c main_arg0) (V c main_call0_v0) (fun j => V c main_call0_v1 (ix2 0 j))))
          (V c main_call0_v2) (V c main_call0_v3) (fun j => V c main_call0_v5 (ix2 0 j))) :=
  (dat0 V c).arrAt_eq_of_cover 8 (G0 V c) (fun t _ => flushed0_8 V c t) tiled0_8

end Cert.KernelIdeal.Hand

end
-- ==== Proof.KI.Value1.lean ====
import proofs.«155376_g26603027432194_cont_9to1_1414_9_alg».proof.Proof.KI.Region0
import proofs.«155376_g26603027432194_cont_9to1_1414_9_alg».proof.Proof.KI.Region1
import proofs.«155376_g26603027432194_cont_9to1_1414_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! # What the second pallas_call leaves in its result array, at the ideal instance

Stripe `t` of the result is the layer applied to rows `512 t … 512 t + 511` of the (narrowed) adjacencies and to the
whole layer-0 features array; the eight stripes tile the array. -/

/-! ## The two matrix products at an index -/

theorem lhs_mmA_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_mmA_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_mmA_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_mmA_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- A stripe of an adjacency times the features, into the zero accumulator: entry `(p, k)` is `Σₗ a[p,l] · h[l,k]`. -/
theorem mmA_apply (a : FVec Ideal S512x4096 .bf16) (h : FVec Ideal S4096x256 .bf16) (p : Fin 512) (k : Fin 256) :
    FloatOps.matmul dot_S512x4096_S4096x256_S512x256_1_0_0_1_n_n none a h (constant (F := Ideal) S512x256 .f32 0x00000000#32) (ix2 p k)
      = ∑ l : Fin 4096, a (ix2 p l) * h (ix2 l k) := by
  rw [Ideal.matmul_constant_zero_apply, ← Equiv.sum_comp (ValueIdx.contrEquiv1 dot_S512x4096_S4096x256_S512x256_1_0_0_1_n_n 4096 rfl rfl).symm]
  refine Finset.sum_congr rfl fun l _ => ?_
  have hl := ValueIdx.contrEquiv1_symm_val dot_S512x4096_S4096x256_S512x256_1_0_0_1_n_n 4096 rfl rfl l
  have el : dot_S512x4096_S4096x256_S512x256_1_0_0_1_n_n.lhsIdx (ix2 p k) ((ValueIdx.contrEquiv1 dot_S512x4096_S4096x256_S512x256_1_0_0_1_n_n 4096 rfl rfl).symm l) = ix2 p l := funext fun a => Fin.ext (by
    match a with
    | ⟨0, _⟩ => exact lhs_mmA_0 _ _
    | ⟨1, _⟩ => exact (lhs_mmA_1 _ _).trans hl)
  have er : dot_S512x4096_S4096x256_S512x256_1_0_0_1_n_n.rhsIdx (ix2 p k) ((ValueIdx.contrEquiv1 dot_S512x4096_S4096x256_S512x256_1_0_0_1_n_n 4096 rfl rfl).symm l) = ix2 l k := funext fun a => Fin.ext (by
    match a with
    | ⟨0, _⟩ => exact (rhs_mmA_0 _ _).trans hl
    | ⟨1, _⟩ => exact rhs_mmA_1 _ _)
  rw [el, er]

theorem lhs_mmW_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_mmW_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_mmW_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_mmW_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- An aggregate stripe times a transposed weight, into the zero accumulator: entry `(p, j)` is `Σₖ g[p,k] · w[k,j]`. -/
theorem mmW_apply (g : FVec Ideal S512x256 .f32) (w : FVec Ideal S256x256 .f32) (p : Fin 512) (j : Fin 256) :
    FloatOps.matmul dot_S512x256_S256x256_S512x256_1_0_0_1_n_n none g w (constant (F := Ideal) S512x256 .f32 0x00000000#32) (ix2 p j)
      = ∑ k : Fin 256, g (ix2 p k) * w (ix2 k j) := by
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 p j) ((ValueIdx.contrEquiv1 dot_S512x256_S256x256_S512x256_1_0_0_1_n_n 256 rfl rfl).symm k) = ix2 p k := funext fun a => Fin.ext (by
    match a with
    | ⟨0, _⟩ => exact lhs_mmW_0 _ _
    | ⟨1, _⟩ => exact (lhs_mmW_1 _ _).trans hk)
  have er : dot_S512x256_S256x256_S512x256_1_0_0_1_n_n.rhsIdx (ix2 p j) ((ValueIdx.contrEquiv1 dot_S512x256_S256x256_S512x256_1_0_0_1_n_n 256 rfl rfl).symm k) = ix2 k j := funext fun a => Fin.ext (by
    match a with
    | ⟨0, _⟩ => exact (rhs_mmW_0 _ _).trans hk
    | ⟨1, _⟩ => exact rhs_mmW_1 _ _)
  rw [el, er]

/-! ## The body's arithmetic at an entry of the stripe -/

/-- Entry `(p, j)` of the stored stripe: `tanh((Σₖ (Σₗ ap[p,l]·h[l,k])·wp[k,j] + Σₖ (Σₗ an[p,l]·h[l,k])·wn[k,j]) + b[0,j])`. -/
theorem pay1_apply (h : Vec Ideal S4096x256 .f32) (ap an : Vec Ideal S512x4096 .bf16) (wp wn : Vec Ideal S256x256 .f32)
    (b : Vec Ideal S1x256 .f32) (p : Fin 512) (j : Fin 256) :
    k1_pay1 h ap an wp wn b (ix2 p j)
      = Ideal.tanh (((∑ k : Fin 256, (∑ l : Fin 4096, ap (ix2 p l) * h (ix2 l k)) * wp (ix2 k j))
          + (∑ k : Fin 256, (∑ l : Fin 4096, an (ix2 p l) * h (ix2 l k)) * wn (ix2 k j))) + b (ix2 0 j)) := by
  unfold k1_pay1
  simp only [shapeCast_self]
  refine congrArg Ideal.tanh ?_
  refine congrArg₂ (· + ·) (congrArg₂ (· + ·) ?_ ?_) ?_
  · refine (mmW_apply _ _ p j).trans ?_
    refine Finset.sum_congr rfl fun k _ => ?_
    exact congrArg (· * wp (ix2 k j)) (mmA_apply ap _ p k)
  · refine (mmW_apply _ _ p j).trans ?_
    refine Finset.sum_congr rfl fun k _ => ?_
    exact congrArg (· * wn (ix2 k j)) (mmA_apply an _ p k)
  · exact broadcastTo_apply b broadcasts_S1x256_S512x256 (ix2 p j) (ix2 0 j) (fun a => by
      match a with
      | ⟨0, _⟩ => rfl
      | ⟨1, _⟩ => rfl)

/-! ## The blocks the windows hand the body, as entries of the arrays -/

/-- The index maps over the eight points: the adjacency stripes and the result stripe move with the point along the
    rows; the features, the weights and the bias are whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the positive adjacency's stripe at point `t` is row `512 t + p` of the array. -/
theorem iblk1_0_apply (c : Dev nD) (t : Fin cfg1.N) (p : Fin 512) (l : Fin 4096) (r : Fin 4096) (hr : r.val = 512 * t.val + p.val) :
    (iblk1 V c 0 t : Vec Ideal S512x4096 .bf16) (ix2 p l) = (V c main_call0_v6_1 : S4096x4096.Idx → EReal) (ix2 r l) := by
  obtain ⟨e0, e1, -⟩ := idx_facts1 t
  unfold iblk1
  rw [View.read_apply]
  show V c main_call0_v6_1 _ = V c main_call0_v6_1 _
  refine congrArg (V c main_call0_v6_1) (funext fun a => Fin.ext ?_)
  match a with
  | ⟨0, _⟩ => show win1_0.index t (0 : Fin 2) * 512 + 1 * p.val = r.val; rw [e0, hr]; omega
  | ⟨1, _⟩ => show win1_0.index t (1 : Fin 2) * 4096 + 1 * l.val = l.val; rw [e1]; omega

/-- Row `p` of the negative adjacency's stripe at point `t` is row `512 t + p` of the array. -/
theorem iblk1_1_apply (c : Dev nD) (t : Fin cfg1.N) (p : Fin 512) (l : Fin 4096) (r : Fin 4096) (hr : r.val = 512 * t.val + p.val) :
    (iblk1 V c 1 t : Vec Ideal S512x4096 .bf16) (ix2 p l) = (V c main_call0_v6_2 : S4096x4096.Idx → EReal) (ix2 r l) := by
  obtain ⟨-, -, e0, e1, -⟩ := idx_facts1 t
  unfold iblk1
  rw [View.read_apply]
  show V c main_call0_v6_2 _ = V c main_call0_v6_2 _
  refine congrArg (V c main_call0_v6_2) (funext fun a => Fin.ext ?_)
  match a with
  | ⟨0, _⟩ => show win1_1.index t (0 : Fin 2) * 512 + 1 * p.val = r.val; rw [e0, hr]; omega
  | ⟨1, _⟩ => show win1_1.index t (1 : Fin 2) * 4096 + 1 * l.val = l.val; rw [e1]; omega

/-- The features block is the features array. -/
theorem iblk1_2_apply (c : Dev nD) (t : Fin cfg1.N) (l : Fin 4096) (k : Fin 256) :
    (iblk1 V c 2 t : Vec Ideal S4096x256 .f32) (ix2 l k) = (V c main_call0_v6_0 : S4096x256.Idx → EReal) (ix2 l k) := by
  obtain ⟨-, -, -, -, e0, e1, -⟩ := idx_facts1 t
  unfold iblk1
  rw [View.read_apply]
  show V c main_call0_v6_0 _ = V c main_call0_v6_0 _
  refine congrArg (V c main_call0_v6_0) (funext fun a => Fin.ext ?_)
  match a with
  | ⟨0, _⟩ => show win1_2.index t (0 : Fin 2) * 4096 + 1 * l.val = l.val; rw [e0]; omega
  | ⟨1, _⟩ => show win1_2.index t (1 : Fin 2) * 256 + 1 * k.val = k.val; rw [e1]; omega

/-- The positive weight's block is the array. -/
theorem iblk1_3_apply (c : Dev nD) (t : Fin cfg1.N) (k : Fin 256) (j : Fin 256) :
    (iblk1 V c 3 t : Vec Ideal S256x256 .f32) (ix2 k j) = (V c main_call0_v7 : S256x256.Idx → EReal) (ix2 k j) := by
  obtain ⟨-, -, -, -, -, -, e0, e1, -⟩ := idx_facts1 t
  unfold iblk1
  rw [View.read_apply]
  show V c main_call0_v7 _ = V c main_call0_v7 _
  refine congrArg (V c main_call0_v7) (funext fun a => Fin.ext ?_)
  match a with
  | ⟨0, _⟩ => show win1_3.index t (0 : Fin 2) * 256 + 1 * k.val = k.val; rw [e0]; omega
  | ⟨1, _⟩ => show win1_3.index t (1 : Fin 2) * 256 + 1 * j.val = j.val; rw [e1]; omega

/-- The negative weight's block is the array. -/
theorem iblk1_4_apply (c : Dev nD) (t : Fin cfg1.N) (k : Fin 256) (j : Fin 256) :
    (iblk1 V c 4 t : Vec Ideal S256x256 .f32) (ix2 k j) = (V c main_call0_v8 : S256x256.Idx → EReal) (ix2 k j) := by
  obtain ⟨-, -, -, -, -, -, -, -, e0, e1, -⟩ := idx_facts1 t
  unfold iblk1
  rw [View.read_apply]
  show V c main_call0_v8 _ = V c main_call0_v8 _
  refine congrArg (V c main_call0_v8) (funext fun a => Fin.ext ?_)
  match a with
  | ⟨0, _⟩ => show win1_4.index t (0 : Fin 2) * 256 + 1 * k.val = k.val; rw [e0]; omega
  | ⟨1, _⟩ => show win1_4.index t (1 : Fin 2) * 256 + 1 * j.val = j.val; rw [e1]; omega

/-- The bias block is the bias row. -/
theorem iblk1_5_apply (c : Dev nD) (t : Fin cfg1.N) (j : Fin 256) :
    (iblk1 V c 5 t : Vec Ideal S1x256 .f32) (ix2 0 j) = (V c main_call0_v10 : S1x256.Idx → EReal) (ix2 0 j) := by
  obtain ⟨-, -, -, -, -, -, -, -, -, -, e0, e1, -⟩ := idx_facts1 t
  unfold iblk1
  rw [View.read_apply]
  show V c main_call0_v10 _ = V c main_call0_v10 _
  refine congrArg (V c main_call0_v10) (funext fun a => Fin.ext ?_)
  match a with
  | ⟨0, _⟩ => show win1_5.index t (0 : Fin 2) * 1 + 1 * (0 : Fin 1).val = (0 : Fin 1).val; rw [e0]; omega
  | ⟨1, _⟩ => show win1_5.index t (1 : Fin 2) * 256 + 1 * j.val = j.val; rw [e1]; omega

/-! ## A stripe's entry is the layer's -/

/-- An entry of the specification's array, at an index given by its coordinates' values. -/
theorem mk_at (f : Fin 4096 → Fin 256 → EReal) (i : S4096x256.Idx) (r : Fin 4096) (j : Fin 256)
    (h0 : (i 0).val = r.val) (h1 : (i 1).val = j.val) : Cert.Spec.mk f i = f r j := by
  unfold Cert.Spec.mk
  rw [show (⟨(i 0).val, (i 0).isLt⟩ : Fin 4096) = r from Fin.ext h0, show (⟨(i 1).val, (i 1).isLt⟩ : Fin 256) = j from Fin.ext h1]

/-- Entry `(p, j)` of what point `t` stores is the layer's entry at row `512 t + p`. -/
theorem stripe_entry (c : Dev nD) (t : Fin cfg1.N) (p : Fin 512) (j : Fin 256) (r : Fin 4096) (hr : r.val = 512 * t.val + p.val) :
    k1_pay1 (iblk1 V c 2 t) (iblk1 V c 0 t) (iblk1 V c 1 t) (iblk1 V c 3 t) (iblk1 V c 4 t) (iblk1 V c 5 t) (ix2 p j)
      = Cert.Spec.layerK (V c main_call0_v6_1) (V c main_call0_v6_2) (V c main_call0_v6_0)
          (V c main_call0_v7) (V c main_call0_v8) (fun j => V c main_call0_v10 (ix2 0 j)) r j := by
  refine (pay1_apply (iblk1 V c 2 t) (iblk1 V c 0 t) (iblk1 V c 1 t) (iblk1 V c 3 t) (iblk1 V c 4 t) (iblk1 V c 5 t) p j).trans ?_
  unfold Cert.Spec.layerK Cert.Spec.aggW Cert.Spec.agg
  refine congrArg Ideal.tanh (congrArg₂ (· + ·) (congrArg₂ (· + ·) ?_ ?_) (iblk1_5_apply V c t j))
  · refine Finset.sum_congr rfl fun k _ => ?_
    refine congrArg₂ (· * ·) (Finset.sum_congr rfl fun l _ => ?_) (iblk1_3_apply V c t k j)
    exact congrArg₂ (· * ·) (iblk1_0_apply V c t p l r hr) (iblk1_2_apply V c t l k)
  · refine Finset.sum_congr rfl fun k _ => ?_
    refine congrArg₂ (· * ·) (Finset.sum_congr rfl fun l _ => ?_) (iblk1_4_apply V c t k j)
    exact congrArg₂ (· * ·) (iblk1_1_apply V c t p l r hr) (iblk1_2_apply V c t l k)

/-! ## From the stripes to the array -/

theorem hz1 : (![0, 0] : Fin 2 → Nat) = fun _ => 0 :=
  funext fun a => by
    match a with
    | ⟨0, _⟩ => rfl
    | ⟨1, _⟩ => rfl

/-- The layer over the arrays the region was handed. -/
abbrev G1 (c : Dev nD) : S4096x256.Idx → EReal :=
  Cert.Spec.mk (Cert.Spec.layerK (V c main_call0_v6_1) (V c main_call0_v6_2) (V c main_call0_v6_0)
    (V c main_call0_v7) (V c main_call0_v8) (fun j => V c main_call0_v10 (ix2 0 j)))

/-- What point `t` writes back is stripe `t` of the layer. -/
theorem flushed1_6 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S512x4096) hz1, View.ld_unit_zero (S := S4096x256) hz1,
    View.ld_unit_zero (S := S256x256) hz1, View.ld_unit_zero (S := S1x256) hz1]
  obtain ⟨-, -, -, -, -, -, -, -, -, -, -, -, e0, e1⟩ := idx_facts1 t
  funext y
  obtain ⟨p, j, rfl⟩ : ∃ (p : Fin 512) (j : Fin 256), y = ix2 p j := ⟨y 0, y 1, eq_ix2 y⟩
  have hN : cfg1.N = 8 := N_1
  have ht := t.isLt
  have hp := p.isLt
  have hr : 512 * t.val + p.val < 4096 := by omega
  show k1_pay1 (iblk1 V c 2 t) (iblk1 V c 0 t) (iblk1 V c 1 t) (iblk1 V c 3 t) (iblk1 V c 4 t) (iblk1 V c 5 t) (ix2 p j)
    = G1 V c (((cfg1.win 6).blk t).view.emb (ix2 p j))
  refine (stripe_entry V c t p j ⟨512 * t.val + p.val, hr⟩ rfl).trans (mk_at _ _ _ _ ?_ ?_).symm
  · show win1_6.index t (0 : Fin 2) * 512 + 1 * p.val = 512 * t.val + p.val; rw [e0]; omega
  · show win1_6.index t (1 : Fin 2) * 256 + 1 * j.val = j.val; rw [e1]; omega

/-- An index of the array is in point `t`'s stripe iff each coordinate is in the stripe's range on its axis. -/
theorem mem_blk1_6 (t : Fin cfg1.N) (i : S4096x256.Idx) :
    i ∈ ((cfg1.win 6).blk t).view.set ↔ ∀ a : Fin 2, win1_6.index t a * S512x256.size a ≤ (i a).val ∧ (i a).val < win1_6.index t a * S512x256.size a + S512x256.size a := by
  show i ∈ ((View.whole main_v0).slice (win1_6.rect t)).set ↔ _
  rw [View.set_slice_whole, Rect.mem_set_unit]
  exact Iff.rfl

/-- Row `r` is in the stripe of point `r / 512`: the eight stripes tile the array. -/
theorem tiled1_6 (i : S4096x256.Idx) :
    ∃ t : Fin cfg1.N, (cfg1.win 6).flush t = true ∧ i ∈ ((cfg1.win 6).blk t).view.set := by
  have hi0 : (i 0).val < 4096 := (i 0).isLt
  have hi1 : (i 1).val < 256 := (i 1).isLt
  have hN : cfg1.N = 8 := N_1
  have hq : (i 0).val / 512 < cfg1.N := by rw [hN]; omega
  obtain ⟨-, -, -, -, -, -, -, -, -, -, -, -, e0, e1⟩ := idx_facts1 ⟨(i 0).val / 512, hq⟩
  refine ⟨⟨(i 0).val / 512, hq⟩, flush1_6 _, ?_⟩
  rw [mem_blk1_6]
  intro a
  match a with
  | ⟨0, _⟩ =>
    show win1_6.index ⟨(i 0).val / 512, hq⟩ (0 : Fin 2) * 512 ≤ (i 0).val ∧ (i 0).val < win1_6.index ⟨(i 0).val / 512, hq⟩ (0 : Fin 2) * 512 + 512
    rw [e0]; show (i 0).val / 512 * 512 ≤ (i 0).val ∧ (i 0).val < (i 0).val / 512 * 512 + 512; omega
  | ⟨1, _⟩ =>
    show win1_6.index ⟨(i 0).val / 512, hq⟩ (1 : Fin 2) * 256 ≤ (i 1).val ∧ (i 1).val < win1_6.index ⟨(i 0).val / 512, hq⟩ (1 : Fin 2) * 256 + 256
    rw [e1]; omega

/-- The result array after the region: the kernel-grouped layer over the features the region was handed. -/
theorem arr1_6 (c : Dev nD) :
    ((dat1 V c).arrAt 6 cfg1.N : S4096x256.Idx → EReal)
      = Cert.Spec.mk (Cert.Spec.layerK (V c main_call0_v6_1) (V c main_call0_v6_2) (V c main_call0_v6_0)
          (V c main_call0_v7) (V c main_call0_v8) (fun j => V c main_call0_v10 (ix2 0 j))) :=
  (dat1 V c).arrAt_eq_of_cover 6 (G1 V c) (fun t _ => flushed1_6 V c t) tiled1_6

end Cert.KernelIdeal.Hand

end
-- ==== Proof.KI.Final.lean ====
import proofs.«155376_g26603027432194_cont_9to1_1414_9_alg».proof.Proof.KI.Run
import proofs.«155376_g26603027432194_cont_9to1_1414_9_alg».proof.Proof.KI.Value0
import proofs.«155376_g26603027432194_cont_9to1_1414_9_alg».proof.Proof.KI.Value1
import proofs.«155376_g26603027432194_cont_9to1_1414_9_alg».proof.Proof.Spec
import Idealize.ShloMosaic.Lib.Pipeline.Value
import Idealize.ShloMosaic.Lib.ValueIdx
import Idealize.ShloMosaic.Lib.StableHlo.Run

/-! # The idealized kernel's result, as a function of the launch memory

The boundary contents are read back through the fold: a host stretch's results are its operations applied to the
arguments (a transposition kept whole; a bias row read at its column; the summed bias the sum of the two rows), the
first region's arrays are what its write-backs leave (the layer-0 features; the adjacencies themselves), and the second
region's result is the layer over those. Composed, the result array is the specification in the kernel's grouping. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ)

/-- A 1×256 row made from a 256-vector by adding a unit axis, read at column `j`. -/
theorem row_apply (v : S256.Idx → EReal) (j : Fin 256) :
    shapeCast S1x256 v shapeCasts_S256_S1x256 (ix2 0 j) = v (ix1 j) := by
  refine (shapeCast_addUnit_apply (n := 1) ![256] v shapeCasts_S256_S1x256 (ix2 0 j)).trans (congrArg v ?_)
  funext a
  match a with
  | ⟨0, _⟩ => rfl

/-! ## The first host stretch -/

theorem e1_arg0 (c : Dev nD) : E1 m c main_arg0 = m ((c : Thread nD τ).loc main_arg0) := W1_of m c main_arg0 (by decide)
theorem e1_arg1 (c : Dev nD) : E1 m c main_arg1 = m ((c : Thread nD τ).loc main_arg1) := W1_of m c main_arg1 (by decide)
theorem e1_arg2 (c : Dev nD) : E1 m c main_arg2 = m ((c : Thread nD τ).loc main_arg2) := W1_of m c main_arg2 (by decide)

theorem e1_v0 (c : Dev nD) : (E1 m c main_call0_v0 : S256x256.Idx → EReal)
    = transpose S256x256 [1, 0] (m ((c : Thread nD τ).loc main_arg3)) transposes_S256x256_S256x256_1_0 := by
  show StableHlo.after hostOps0 (W0 m c) (Proc.devRef .tc main_call0_v0) = _
  after_results
  rfl
theorem e1_v2 (c : Dev nD) : (E1 m c main_call0_v2 : S256x256.Idx → EReal)
    = transpose S256x256 [1, 0] (m ((c : Thread nD τ).loc main_arg5)) transposes_S256x256_S256x256_1_0 := by
  show StableHlo.after hostOps0 (W0 m c) (Proc.devRef .tc main_call0_v2) = _
  after_results
  rfl
theorem e1_v3 (c : Dev nD) : (E1 m c main_call0_v3 : S256x256.Idx → EReal)
    = transpose S256x256 [1, 0] (m ((c : Thread nD τ).loc main_arg7)) transposes_S256x256_S256x256_1_0 := by
  show StableHlo.after hostOps0 (W0 m c) (Proc.devRef .tc main_call0_v3) = _
  after_results
  rfl
theorem e1_v1 (c : Dev nD) : (E1 m c main_call0_v1 : S1x256.Idx → EReal)
    = shapeCast S1x256 (m ((c : Thread nD τ).loc main_arg4)) shapeCasts_S256_S1x256 := by
  show StableHlo.after hostOps0 (W0 m c) (Proc.devRef .tc main_call0_v1) = _
  after_results
  rfl
theorem e1_v5 (c : Dev nD) : (E1 m c main_call0_v5 : S1x256.Idx → EReal)
    = shapeCast S1x256 (addf (F := Ideal) (φ := .f32) (m ((c : Thread nD τ).loc main_arg6) : FVec Ideal S256 .f32) (m ((c : Thread nD τ).loc main_arg8) : FVec Ideal S256 .f32)) shapeCasts_S256_S1x256 := by
  show StableHlo.after hostOps0 (W0 m c) (Proc.devRef .tc main_call0_v5) = _
  after_results
  rfl

/-! ## The first region's arrays, the second host stretch -/

/-- The second region is handed the layer-0 features the first left. -/
theorem e3_v6_0 (c : Dev nD) : (E3 m c main_call0_v6_0 : S4096x256.Idx → EReal) = (dat0 (E1 m) c).arrAt 8 cfg0.N :=
  (W3_of m c main_call0_v6_0 (by decide)).trans (W2_arr m c 8)
theorem e3_v6_1 (c : Dev nD) : (E3 m c main_call0_v6_1 : S4096x4096.Idx → EReal) = (dat0 (E1 m) c).arrAt 9 cfg0.N :=
  (W3_of m c main_call0_v6_1 (by decide)).trans (W2_arr m c 9)
theorem e3_v6_2 (c : Dev nD) : (E3 m c main_call0_v6_2 : S4096x4096.Idx → EReal) = (dat0 (E1 m) c).arrAt 10 cfg0.N :=
  (W3_of m c main_call0_v6_2 (by decide)).trans (W2_arr m c 10)

/-- An argument the first region does not stage is unchanged at its exit. -/
theorem w2_arg (c : Dev nD) (b : Ref sig .tc) (h0 : ∀ w, Pipeline.arrRef spec0 w ≠ b) (h1 : b ∉ hostOps0_W) :
    W2 m c (Proc.devRef .tc b) = m ((c : Thread nD τ).loc b) :=
  (W2_of_ne m c b h0).trans (W1_of m c b h1)

theorem e3_v7 (c : Dev nD) : (E3 m c main_call0_v7 : S256x256.Idx → EReal)
    = transpose S256x256 [1, 0] (m ((c : Thread nD τ).loc main_arg9)) transposes_S256x256_S256x256_1_0 := by
  rw [← w2_arg m c main_arg9 (by decide) (by decide)]
  show StableHlo.after hostOps1 (W2 m c) (Proc.devRef .tc main_call0_v7) = _
  after_results
  rfl
theorem e3_v8 (c : Dev nD) : (E3 m c main_call0_v8 : S256x256.Idx → EReal)
    = transpose S256x256 [1, 0] (m ((c : Thread nD τ).loc main_arg11)) transposes_S256x256_S256x256_1_0 := by
  rw [← w2_arg m c main_arg11 (by decide) (by decide)]
  show StableHlo.after hostOps1 (W2 m c) (Proc.devRef .tc main_call0_v8) = _
  after_results
  rfl
theorem e3_v10 (c : Dev nD) : (E3 m c main_call0_v10 : S1x256.Idx → EReal)
    = shapeCast S1x256 (addf (F := Ideal) (φ := .f32) (m ((c : Thread nD τ).loc main_arg10) : FVec Ideal S256 .f32) (m ((c : Thread nD τ).loc main_arg12) : FVec Ideal S256 .f32)) shapeCasts_S256_S1x256 := by
  rw [← w2_arg m c main_arg10 (by decide) (by decide), ← w2_arg m c main_arg12 (by decide) (by decide)]
  show StableHlo.after hostOps1 (W2 m c) (Proc.devRef .tc main_call0_v10) = _
  after_results
  rfl

/-! The launch memory's arguments, typed. -/
abbrev ax0 (c : Dev nD) : S4096x256.Idx → EReal := m ((c : Thread nD τ).loc main_arg0)
abbrev ax1 (c : Dev nD) : S4096x4096.Idx → EReal := m ((c : Thread nD τ).loc main_arg1)
abbrev ax2 (c : Dev nD) : S4096x4096.Idx → EReal := m ((c : Thread nD τ).loc main_arg2)
abbrev ax3 (c : Dev nD) : S256x256.Idx → EReal := m ((c : Thread nD τ).loc main_arg3)
abbrev ax4 (c : Dev nD) : S256.Idx → EReal := m ((c : Thread nD τ).loc main_arg4)
abbrev ax5 (c : Dev nD) : S256x256.Idx → EReal := m ((c : Thread nD τ).loc main_arg5)
abbrev ax6 (c : Dev nD) : S256.Idx → EReal := m ((c : Thread nD τ).loc main_arg6)
abbrev ax7 (c : Dev nD) : S256x256.Idx → EReal := m ((c : Thread nD τ).loc main_arg7)
abbrev ax8 (c : Dev nD) : S256.Idx → EReal := m ((c : Thread nD τ).loc main_arg8)
abbrev ax9 (c : Dev nD) : S256x256.Idx → EReal := m ((c : Thread nD τ).loc main_arg9)
abbrev ax10 (c : Dev nD) : S256.Idx → EReal := m ((c : Thread nD τ).loc main_arg10)
abbrev ax11 (c : Dev nD) : S256x256.Idx → EReal := m ((c : Thread nD τ).loc main_arg11)
abbrev ax12 (c : Dev nD) : S256.Idx → EReal := m ((c : Thread nD τ).loc main_arg12)
/-- A weight as both programs use it: transposed. -/
abbrev tr (w : S256x256.Idx → EReal) : S256x256.Idx → EReal := transpose S256x256 [1, 0] w transposes_S256x256_S256x256_1_0

/-- The layer-0 features the first region leaves: the kernel-grouped layer over the projection, of the arguments. -/
theorem feat0_eq (c : Dev nD) : (E3 m c main_call0_v6_0 : S4096x256.Idx → EReal)
    = Cert.Spec.mk (Cert.Spec.layerK (ax1 m c) (ax2 m c) (Cert.Spec.mk (Cert.Spec.proj (ax0 m c) (tr (ax3 m c)) (fun j => ax4 m c (ix1 j))))
        (tr (ax5 m c)) (tr (ax7 m c)) (fun j => ax6 m c (ix1 j) + ax8 m c (ix1 j))) := by
  refine (e3_v6_0 m c).trans ((arr0_8 (E1 m) c).trans (congrArg Cert.Spec.mk ?_))
  have hb : (fun j : Fin 256 => (E1 m c main_call0_v1 : S1x256.Idx → EReal) (ix2 0 j)) = fun j => ax4 m c (ix1 j) :=
    funext fun j => (congrFun (e1_v1 m c) (ix2 0 j)).trans (row_apply _ j)
  have hs : (fun j : Fin 256 => (E1 m c main_call0_v5 : S1x256.Idx → EReal) (ix2 0 j)) = fun j => ax6 m c (ix1 j) + ax8 m c (ix1 j) :=
    funext fun j => (congrFun (e1_v5 m c) (ix2 0 j)).trans (row_apply _ j)
  have hp : Cert.Spec.mk (Cert.Spec.proj (E1 m c main_arg0) (E1 m c main_call0_v0) (fun j => (E1 m c main_call0_v1 : S1x256.Idx → EReal) (ix2 0 j)))
      = Cert.Spec.mk (Cert.Spec.proj (ax0 m c) (tr (ax3 m c)) (fun j => ax4 m c (ix1 j))) :=
    congrArg Cert.Spec.mk (congr (congr (congrArg Cert.Spec.proj (e1_arg0 m c)) (e1_v0 m c)) hb)
  exact congr (congr (congr (congr (congr (congrArg Cert.Spec.layerK (e1_arg1 m c)) (e1_arg2 m c)) hp) (e1_v2 m c)) (e1_v3 m c)) hs

/-- The kernel's result array: the specification, in the kernel's grouping, of the launch memory's arguments. -/
theorem result_eq (c : Dev nD) :
    ((dat1 (E3 m) c).arrAt 6 cfg1.N : S4096x256.Idx → EReal)
      = Cert.Spec.GK (ax0 m c) (ax1 m c) (ax2 m c) (tr (ax3 m c)) (fun j => ax4 m c (ix1 j))
          (tr (ax5 m c)) (tr (ax7 m c)) (fun j => ax6 m c (ix1 j) + ax8 m c (ix1 j))
          (tr (ax9 m c)) (tr (ax11 m c)) (fun j => ax10 m c (ix1 j) + ax12 m c (ix1 j)) := by
  refine (arr1_6 (E3 m) c).trans (congrArg Cert.Spec.mk ?_)
  have hA : (E3 m c main_call0_v6_1 : S4096x4096.Idx → EReal) = ax1 m c :=
    (e3_v6_1 m c).trans ((arr0_9 (E1 m) c).trans (e1_arg1 m c))
  have hB : (E3 m c main_call0_v6_2 : S4096x4096.Idx → EReal) = ax2 m c :=
    (e3_v6_2 m c).trans ((arr0_10 (E1 m) c).trans (e1_arg2 m c))
  have hs : (fun j : Fin 256 => (E3 m c main_call0_v10 : S1x256.Idx → EReal) (ix2 0 j)) = fun j => ax10 m c (ix1 j) + ax12 m c (ix1 j) :=
    funext fun j => (congrFun (e3_v10 m c) (ix2 0 j)).trans (row_apply _ j)
  exact congr (congr (congr (congr (congr (congrArg Cert.Spec.layerK hA) hB) (feat0_eq m c)) (e3_v7 m c)) (e3_v8 m c)) hs

end Cert.KernelIdeal.Hand

end
-- ==== Proof.RefSide.lean ====
import proofs.«155376_g26603027432194_cont_9to1_1414_9_alg».proof.Defs
import proofs.«155376_g26603027432194_cont_9to1_1414_9_alg».proof.Proof.Gen.ReferenceIdeal.Run
import proofs.«155376_g26603027432194_cont_9to1_1414_9_alg».proof.Proof.Gen.ReferenceIdeal.Read
import proofs.«155376_g26603027432194_cont_9to1_1414_9_alg».proof.Proof.Spec

/-! # The reference computes the specification

Its thirty-four host operations read one at a time at an index: each product is a sum over the contracted axis, each
bias a broadcast read at the column, each `tanh` the extended reals'. The transposed weights are kept as they are. -/

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open scoped BigOperators

/-! ## The composed index functions are the coordinate constructors -/

theorem lidx_v1 (r : Fin 4096) (j k : Fin 256) : lidx_main_v1 (ix2 r j) k = ix2 r k :=
  funext fun a => Fin.ext (by match a with | ⟨0, _⟩ => rfl | ⟨1, _⟩ => rfl)
theorem ridx_v1 (r : Fin 4096) (j k : Fin 256) : ridx_main_v1 (ix2 r j) k = ix2 k j :=
  funext fun a => Fin.ext (by match a with | ⟨0, _⟩ => rfl | ⟨1, _⟩ => rfl)
theorem lidx_v9 (r : Fin 4096) (j k : Fin 256) : lidx_main_v9 (ix2 r j) k = ix2 r k :=
  funext fun a => Fin.ext (by match a with | ⟨0, _⟩ => rfl | ⟨1, _⟩ => rfl)
theorem ridx_v9 (r : Fin 4096) (j k : Fin 256) : ridx_main_v9 (ix2 r j) k = ix2 k j :=
  funext fun a => Fin.ext (by match a with | ⟨0, _⟩ => rfl | ⟨1, _⟩ => rfl)
theorem lidx_v14 (r : Fin 4096) (j k : Fin 256) : lidx_main_v14 (ix2 r j) k = ix2 r k :=
  funext fun a => Fin.ext (by match a with | ⟨0, _⟩ => rfl | ⟨1, _⟩ => rfl)
theorem ridx_v14 (r : Fin 4096) (j k : Fin 256) : ridx_main_v14 (ix2 r j) k = ix2 k j :=
  funext fun a => Fin.ext (by match a with | ⟨0, _⟩ => rfl | ⟨1, _⟩ => rfl)
theorem lidx_v23 (r : Fin 4096) (j k : Fin 256) : lidx_main_v23 (ix2 r j) k = ix2 r k :=
  funext fun a => Fin.ext (by match a with | ⟨0, _⟩ => rfl | ⟨1, _⟩ => rfl)
theorem ridx_v23 (r : Fin 4096) (j k : Fin 256) : ridx_main_v23 (ix2 r j) k = ix2 k j :=
  funext fun a => Fin.ext (by match a with | ⟨0, _⟩ => rfl | ⟨1, _⟩ => rfl)
theorem lidx_v28 (r : Fin 4096) (j k : Fin 256) : lidx_main_v28 (ix2 r j) k = ix2 r k :=
  funext fun a => Fin.ext (by match a with | ⟨0, _⟩ => rfl | ⟨1, _⟩ => rfl)
theorem ridx_v28 (r : Fin 4096) (j k : Fin 256) : ridx_main_v28 (ix2 r j) k = ix2 k j :=
  funext fun a => Fin.ext (by match a with | ⟨0, _⟩ => rfl | ⟨1, _⟩ => rfl)
theorem lidx_v6 (r l : Fin 4096) (k : Fin 256) : lidx_main_v6 (ix2 r k) l = ix2 r l :=
  funext fun a => Fin.ext (by match a with | ⟨0, _⟩ => rfl | ⟨1, _⟩ => rfl)
theorem ridx_v6 (r l : Fin 4096) (k : Fin 256) : ridx_main_v6 (ix2 r k) l = ix2 l k :=
  funext fun a => Fin.ext (by match a with | ⟨0, _⟩ => rfl | ⟨1, _⟩ => rfl)
theorem lidx_v7 (r l : Fin 4096) (k : Fin 256) : lidx_main_v7 (ix2 r k) l = ix2 r l :=
  funext fun a => Fin.ext (by match a with | ⟨0, _⟩ => rfl | ⟨1, _⟩ => rfl)
theorem ridx_v7 (r l : Fin 4096) (k : Fin 256) : ridx_main_v7 (ix2 r k) l = ix2 l k :=
  funext fun a => Fin.ext (by match a with | ⟨0, _⟩ => rfl | ⟨1, _⟩ => rfl)
theorem lidx_v20 (r l : Fin 4096) (k : Fin 256) : lidx_main_v20 (ix2 r k) l = ix2 r l :=
  funext fun a => Fin.ext (by match a with | ⟨0, _⟩ => rfl | ⟨1, _⟩ => rfl)
theorem ridx_v20 (r l : Fin 4096) (k : Fin 256) : ridx_main_v20 (ix2 r k) l = ix2 l k :=
  funext fun a => Fin.ext (by match a with | ⟨0, _⟩ => rfl | ⟨1, _⟩ => rfl)
theorem lidx_v21 (r l : Fin 4096) (k : Fin 256) : lidx_main_v21 (ix2 r k) l = ix2 r l :=
  funext fun a => Fin.ext (by match a with | ⟨0, _⟩ => rfl | ⟨1, _⟩ => rfl)
theorem ridx_v21 (r l : Fin 4096) (k : Fin 256) : ridx_main_v21 (ix2 r k) l = ix2 l k :=
  funext fun a => Fin.ext (by match a with | ⟨0, _⟩ => rfl | ⟨1, _⟩ => rfl)
theorem bidx_v3 (r : Fin 4096) (j : Fin 256) : idx_main_v2 (idx_main_v3 (ix2 r j)) = ix1 j :=
  funext fun a => Fin.ext (by match a with | ⟨0, _⟩ => rfl)
theorem bidx_v11 (r : Fin 4096) (j : Fin 256) : idx_main_v10 (idx_main_v11 (ix2 r j)) = ix1 j :=
  funext fun a => Fin.ext (by match a with | ⟨0, _⟩ => rfl)
theorem bidx_v16 (r : Fin 4096) (j : Fin 256) : idx_main_v15 (idx_main_v16 (ix2 r j)) = ix1 j :=
  funext fun a => Fin.ext (by match a with | ⟨0, _⟩ => rfl)
theorem bidx_v25 (r : Fin 4096) (j : Fin 256) : idx_main_v24 (idx_main_v25 (ix2 r j)) = ix1 j :=
  funext fun a => Fin.ext (by match a with | ⟨0, _⟩ => rfl)
theorem bidx_v30 (r : Fin 4096) (j : Fin 256) : idx_main_v29 (idx_main_v30 (ix2 r j)) = ix1 j :=
  funext fun a => Fin.ext (by match a with | ⟨0, _⟩ => rfl)

/-! ## The input projection -/

/-- Operations 1 to 5: the product with the transposed input weight, the bias broadcast over the rows, their sum and
    its `tanh` are the specification's projection, entry by entry. -/
theorem v5_eq (x0 : (⟨S4096x256, .f32⟩ : BufTy).Contents (Elt Ideal)) (x3 : (⟨S256x256, .f32⟩ : BufTy).Contents (Elt Ideal)) (x4 : (⟨S256, .f32⟩ : BufTy).Contents (Elt Ideal)) :
    (val_main_v5 (F := Ideal) x0 x3 x4 : S4096x256.Idx → EReal)
      = Cert.Spec.mk (Cert.Spec.proj x0 (val_main_v0 (F := Ideal) x3) (fun j => x4 (ix1 j))) := by
  funext i
  obtain ⟨r, j, rfl⟩ : ∃ (r : Fin 4096) (j : Fin 256), i = ix2 r j := ⟨i 0, i 1, eq_ix2 i⟩
  rw [Cert.Spec.mk_ix2, val_main_v5_apply, val_main_v4_apply, val_main_v1_apply, val_main_v3_apply, val_main_v2_apply]
  simp only [lidx_v1, ridx_v1, bidx_v3, Ideal.hostUnary_tanh_def, Ideal.addf_def]
  rfl

/-! ## The two layers -/

/-- Operations 6 to 19: the two adjacency products of the projected features, each times its transposed weight plus its
    bias broadcast over the rows, the sum of the two branches and its `tanh` are the specification's layer over those
    features, entry by entry. The features enter only through their entries, so they are read as an arbitrary array. -/
theorem v19_eq (x0 : (⟨S4096x256, .f32⟩ : BufTy).Contents (Elt Ideal)) (x1 : (⟨S4096x4096, .f32⟩ : BufTy).Contents (Elt Ideal)) (x2 : (⟨S4096x4096, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) :
    (val_main_v19 (F := Ideal) x0 x1 x2 x3 x4 x5 x6 x7 x8 : S4096x256.Idx → EReal)
      = Cert.Spec.mk (Cert.Spec.layerR x1 x2 (val_main_v5 (F := Ideal) x0 x3 x4)
          (val_main_v8 (F := Ideal) x5) (fun j => x6 (ix1 j)) (val_main_v13 (F := Ideal) x7) (fun j => x8 (ix1 j))) := by
  funext i
  obtain ⟨r, j, rfl⟩ : ∃ (r : Fin 4096) (j : Fin 256), i = ix2 r j := ⟨i 0, i 1, eq_ix2 i⟩
  rw [Cert.Spec.mk_ix2, val_main_v19_apply, val_main_v18_apply, val_main_v12_apply, val_main_v17_apply,
    val_main_v9_apply, val_main_v14_apply, val_main_v11_apply, val_main_v10_apply, val_main_v16_apply, val_main_v15_apply]
  simp only [lidx_v9, ridx_v9, lidx_v14, ridx_v14, val_main_v6_apply, val_main_v7_apply]
  generalize val_main_v5 (F := Ideal) x0 x3 x4 = h
  simp only [lidx_v6, ridx_v6, lidx_v7, ridx_v7, bidx_v11, bidx_v16, Ideal.hostUnary_tanh_def, Ideal.addf_def]
  rfl

/-- Operations 20 to 33: the same layer, with the second pair of weights and biases, over the first layer's result. -/
theorem v33_eq (x0 : (⟨S4096x256, .f32⟩ : BufTy).Contents (Elt Ideal)) (x1 : (⟨S4096x4096, .f32⟩ : BufTy).Contents (Elt Ideal)) (x2 : (⟨S4096x4096, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) :
    (val_main_v33 (F := Ideal) x0 x1 x2 x3 x4 x5 x6 x7 x8 x9 x10 x11 x12 : S4096x256.Idx → EReal)
      = Cert.Spec.mk (Cert.Spec.layerR x1 x2 (val_main_v19 (F := Ideal) x0 x1 x2 x3 x4 x5 x6 x7 x8)
          (val_main_v22 (F := Ideal) x9) (fun j => x10 (ix1 j)) (val_main_v27 (F := Ideal) x11) (fun j => x12 (ix1 j))) := by
  funext i
  obtain ⟨r, j, rfl⟩ : ∃ (r : Fin 4096) (j : Fin 256), i = ix2 r j := ⟨i 0, i 1, eq_ix2 i⟩
  rw [Cert.Spec.mk_ix2, val_main_v33_apply, val_main_v32_apply, val_main_v26_apply, val_main_v31_apply,
    val_main_v23_apply, val_main_v28_apply, val_main_v25_apply, val_main_v24_apply, val_main_v30_apply, val_main_v29_apply]
  simp only [lidx_v23, ridx_v23, lidx_v28, ridx_v28, val_main_v20_apply, val_main_v21_apply]
  generalize val_main_v19 (F := Ideal) x0 x1 x2 x3 x4 x5 x6 x7 x8 = h
  simp only [lidx_v20, ridx_v20, lidx_v21, ridx_v21, bidx_v25, bidx_v30, Ideal.hostUnary_tanh_def, Ideal.addf_def]
  rfl

/-! ## The whole reference -/

/-- The reference's result, as a function of its thirteen arguments, is the specification `G` of them (the weights
    through the reference's own transpositions, each bias read at the column). -/
theorem ref_eq (x0 : (⟨S4096x256, .f32⟩ : BufTy).Contents (Elt Ideal)) (x1 x2 : (⟨S4096x4096, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal))
    (x11 : (⟨S256x256, .f32⟩ : BufTy).Contents (Elt Ideal)) (x12 : (⟨S256, .f32⟩ : BufTy).Contents (Elt Ideal)) :
    (val_main_v33 (F := Ideal) x0 x1 x2 x3 x4 x5 x6 x7 x8 x9 x10 x11 x12 : S4096x256.Idx → EReal)
      = Cert.Spec.G x0 x1 x2 (val_main_v0 (F := Ideal) x3) (fun j => x4 (ix1 j))
          (val_main_v8 (F := Ideal) x5) (fun j => x6 (ix1 j)) (val_main_v13 (F := Ideal) x7) (fun j => x8 (ix1 j))
          (val_main_v22 (F := Ideal) x9) (fun j => x10 (ix1 j)) (val_main_v27 (F := Ideal) x11) (fun j => x12 (ix1 j)) := by
  rw [v33_eq, v19_eq, v5_eq]
  rfl

end Cert.ReferenceIdeal.RefValue

end
-- ==== Proof.lean ====
/- The certificate of the signed two-layer graph convolution kernel against its reference.

   The kernel is two fused stripe passes. The first computes the input projection once into a scratch buffer that it
   carries across its sixteen grid points, and at each point the layer-0 features of 256 rows together with copies of
   the two adjacency stripes in a narrower float format; the second computes the layer-1 features 512 rows at a time.
   Frames: each pass is certified on its own proof data (what every staging buffer holds after the body at a point; for
   the first pass an invariant saying that from the second point on the scratch holds the projection) and the passes
   and the host operations between them are chained through the buffers' contents at each boundary.
   Value, over the extended reals: every stripe is the layer applied to its rows, the stripes tile their arrays, a
   change of float format is the identity, so the kernel's result is `tanh((A₊h)Wp + (A₋h)Wn + (bp + bn))` twice over
   `tanh(x Win + b)`; the reference adds each bias to its own branch first. Addition of extended reals is commutative
   and associative, which is all the regrouping needs: no finiteness of the inputs is used. -/
import proofs.«155376_g26603027432194_cont_9to1_1414_9_alg».proof.Defs
import proofs.«155376_g26603027432194_cont_9to1_1414_9_alg».proof.Proof.Gen.Kernel
import proofs.«155376_g26603027432194_cont_9to1_1414_9_alg».proof.Proof.Gen.KernelIdeal
import proofs.«155376_g26603027432194_cont_9to1_1414_9_alg».proof.Proof.Gen.ReferenceIdeal
import proofs.«155376_g26603027432194_cont_9to1_1414_9_alg».proof.Proof.Gen.ReferenceIdeal.Run
import proofs.«155376_g26603027432194_cont_9to1_1414_9_alg».proof.Proof.Gen.ReferenceIdeal.Read
import proofs.«155376_g26603027432194_cont_9to1_1414_9_alg».proof.Proof.Gen.Pre_finite_inputs
import proofs.«155376_g26603027432194_cont_9to1_1414_9_alg».proof.Proof.K.Run
import proofs.«155376_g26603027432194_cont_9to1_1414_9_alg».proof.Proof.KI.Run
import proofs.«155376_g26603027432194_cont_9to1_1414_9_alg».proof.Proof.KI.Final
import proofs.«155376_g26603027432194_cont_9to1_1414_9_alg».proof.Proof.RefSide
import proofs.«155376_g26603027432194_cont_9to1_1414_9_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel := fun m ρ _ => Cert.Kernel.Hand.frame_all (F := Bits) m ρ

/-- So does its idealization. -/
theorem frame_ki : Cert.frame_KernelIdeal := fun m ρ _ => Cert.KernelIdeal.Hand.frame_all (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal.Hand in
/-- At the ideal instance the kernel's result array is the specification in the kernel's grouping of the biases, the
    reference's the specification in its own; the two groupings agree, and the arguments are the same. -/
theorem algebraic : Cert.algebraic_KernelIdeal_ReferenceIdeal := by
  intro m ρ m' ρ' _ hagree
  refine ⟨fun c => (dat1 (E3 m) c).arrAt 6 Cert.KernelIdeal.cfg1.N, Cert.KernelIdeal.Hand.result_all m ρ, ?_⟩
  refine (θ_run Cert.ReferenceIdeal.defs _ _).mono (fun _ h c => ⟨(h c).1.trans ?_, (h c).2⟩)
    (Cert.ReferenceIdeal.Value.run (F := Ideal) m' ρ')
  have h0 : (m' ((c.tc : Thread Cert.ReferenceIdeal.nD Cert.ReferenceIdeal.τ).loc Cert.ReferenceIdeal.main_arg0) : Cert.ReferenceIdeal.S4096x256.Idx → EReal) = ax0 m c := (hagree c).1
  have h1 : (m' ((c.tc : Thread Cert.ReferenceIdeal.nD Cert.ReferenceIdeal.τ).loc Cert.ReferenceIdeal.main_arg1) : Cert.ReferenceIdeal.S4096x4096.Idx → EReal) = ax1 m c := (hagree c).2.1
  have h2 : (m' ((c.tc : Thread Cert.ReferenceIdeal.nD Cert.ReferenceIdeal.τ).loc Cert.ReferenceIdeal.main_arg2) : Cert.ReferenceIdeal.S4096x4096.Idx → EReal) = ax2 m c := (hagree c).2.2.1
  have h3 : (m' ((c.tc : Thread Cert.ReferenceIdeal.nD Cert.ReferenceIdeal.τ).loc Cert.ReferenceIdeal.main_arg3) : Cert.ReferenceIdeal.S256x256.Idx → EReal) = ax3 m c := (hagree c).2.2.2.1
  have h4 : (m' ((c.tc : Thread Cert.ReferenceIdeal.nD Cert.ReferenceIdeal.τ).loc Cert.ReferenceIdeal.main_arg4) : Cert.ReferenceIdeal.S256.Idx → EReal) = ax4 m c := (hagree c).2.2.2.2.1
  have h5 : (m' ((c.tc : Thread Cert.ReferenceIdeal.nD Cert.ReferenceIdeal.τ).loc Cert.ReferenceIdeal.main_arg5) : Cert.ReferenceIdeal.S256x256.Idx → EReal) = ax5 m c := (hagree c).2.2.2.2.2.1
  have h6 : (m' ((c.tc : Thread Cert.ReferenceIdeal.nD Cert.ReferenceIdeal.τ).loc Cert.ReferenceIdeal.main_arg6) : Cert.ReferenceIdeal.S256.Idx → EReal) = ax6 m c := (hagree c).2.2.2.2.2.2.1
  have h7 : (m' ((c.tc : Thread Cert.ReferenceIdeal.nD Cert.ReferenceIdeal.τ).loc Cert.ReferenceIdeal.main_arg7) : Cert.ReferenceIdeal.S256x256.Idx → EReal) = ax7 m c := (hagree c).2.2.2.2.2.2.2.1
  have h8 : (m' ((c.tc : Thread Cert.ReferenceIdeal.nD Cert.ReferenceIdeal.τ).loc Cert.ReferenceIdeal.main_arg8) : Cert.ReferenceIdeal.S256.Idx → EReal) = ax8 m c := (hagree c).2.2.2.2.2.2.2.2.1
  have h9 : (m' ((c.tc : Thread Cert.ReferenceIdeal.nD Cert.ReferenceIdeal.τ).loc Cert.ReferenceIdeal.main_arg9) : Cert.ReferenceIdeal.S256x256.Idx → EReal) = ax9 m c := (hagree c).2.2.2.2.2.2.2.2.2.1
  have h10 : (m' ((c.tc : Thread Cert.ReferenceIdeal.nD Cert.ReferenceIdeal.τ).loc Cert.ReferenceIdeal.main_arg10) : Cert.ReferenceIdeal.S256.Idx → EReal) = ax10 m c := (hagree c).2.2.2.2.2.2.2.2.2.2.1
  have h11 : (m' ((c.tc : Thread Cert.ReferenceIdeal.nD Cert.ReferenceIdeal.τ).loc Cert.ReferenceIdeal.main_arg11) : Cert.ReferenceIdeal.S256x256.Idx → EReal) = ax11 m c := (hagree c).2.2.2.2.2.2.2.2.2.2.2.1
  have h12 : (m' ((c.tc : Thread Cert.ReferenceIdeal.nD Cert.ReferenceIdeal.τ).loc Cert.ReferenceIdeal.main_arg12) : Cert.ReferenceIdeal.S256.Idx → EReal) = ax12 m c := (hagree c).2.2.2.2.2.2.2.2.2.2.2.2
  refine (Cert.ReferenceIdeal.Read.val_main_v33_eq (F := Ideal) m' c).trans ?_
  refine (Cert.ReferenceIdeal.RefValue.ref_eq _ _ _ _ _ _ _ _ _ _ _ _ _).trans ?_
  rw [h0, h1, h2, h3, h4, h5, h6, h7, h8, h9, h10, h11, h12]
  exact ((result_eq m c).trans (Cert.Spec.GK_eq_G _ _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
